-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x4 : Shape := ⟨2, ![50000, 4]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v32 : IVec S1600000 1) (main_v34 : IVec S1600000 32) : IVec S_ 1 :=
  let main_c_11 : IVec S_ 32 := constantI S_ 32 50000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  main_v39

def fn_part1 {F : FTy → Type} [FloatOps F] (main_arg2 : IVec S2x1600000 32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x1600000 32 := (extractStridedSlice S1x1600000 ![0, 0] · slices_S2x1600000_S1x1600000_0_0) main_arg2
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![0, 0] · slices_S2x1600000_S1x1600000_0_0) main_arg2
  let main_v34 : IVec S1600000 32 := shapeCast S1600000 main_v33 shapeCasts_S1x1600000_S1600000
  fn_part2 (F := F) main_v28 main_v32 main_v34

def fn {F : FTy → Type} [FloatOps F] (main_arg0 : FVec F S50000x64 .f32) (main_arg1 : FVec F S50000x4 .f32) (main_arg2 : IVec S2x1600000 32) (main_arg3 : IVec S50000 32) (main_arg4 : FVec F S128x128 .f32) (main_arg5 : FVec F S128 .f32) (main_arg6 : FVec F S128x128 .f32) (main_arg7 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_v13 main_v16
-- ==== Kernel.lean ====
abbrev S50000x64 : Shape := ⟨2, ![50000, 64]⟩
abbrev S50000x4 : Shape := ⟨2, ![50000, 4]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1600000x128 : Shape := ⟨2, ![1600000, 128]⟩
abbrev S6400x64 : Shape := ⟨2, ![6400, 64]⟩
abbrev S6400x128 : Shape := ⟨2, ![6400, 128]⟩
abbrev S1x128 : Shape := ⟨2, ![1, 128]⟩
abbrev S50000x128 : Shape := ⟨2, ![50000, 128]⟩
abbrev S50000x1 : Shape := ⟨2, ![50000, 1]⟩
abbrev S5000x128 : Shape := ⟨2, ![5000, 128]⟩
abbrev S5000x4 : Shape := ⟨2, ![5000, 4]⟩
abbrev S5000x1 : Shape := ⟨2, ![5000, 1]⟩

abbrev nBuf : Space → Nat
  | .hbm => 66
  | .vmem => 17
  | .smem => 0
  | _ => 0

abbrev bufTy : (tb : Table) → Fin (tcTables nBuf tb) → BufTy
  | .hbm, ⟨0, _⟩ => ⟨S50000x64, .f32⟩
  | .hbm, ⟨1, _⟩ => ⟨S50000x4, .f32⟩
  | .hbm, ⟨2, _⟩ => ⟨S2x1600000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x64, .f32⟩
  | .hbm, ⟨31, _⟩ => ⟨S1600000x64, .i1⟩
  | .hbm, ⟨32, _⟩ => ⟨S_, .f32⟩
  | .hbm, ⟨33, _⟩ => ⟨S1600000x64, .f32⟩
  | .hbm, ⟨34, _⟩ => ⟨S1600000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x64, .f32⟩
  | .hbm, ⟨54, _⟩ => ⟨S1600000x64, .i1⟩
  | .hbm, ⟨55, _⟩ => ⟨S_, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S50000x1, .i32⟩
  | .hbm, ⟨65, _⟩ => ⟨S128x128, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S6400x128, .f32⟩
  | .local _ .vmem, ⟨9, _⟩ => ⟨S6400x128, .f32⟩
  | .local _ .vmem, ⟨10, _⟩ => ⟨S5000x128, .f32⟩
  | .local _ .vmem, ⟨11, _⟩ => ⟨S5000x128, .f32⟩
  | .local _ .vmem, ⟨12, _⟩ => ⟨S5000x4, .f32⟩
  | .local _ .vmem, ⟨13, _⟩ => ⟨S5000x4, .f32⟩
  | .local _ .vmem, ⟨14, _⟩ => ⟨S5000x1, .i32⟩
  | .local _ .vmem, ⟨15, _⟩ => ⟨S5000x1, .i32⟩
  | .local _ .vmem, ⟨16, _⟩ => ⟨S128x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_cst : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  concatenates_S6400x64_S6400x64_S6400x128_d1 : Shape.Concatenates [S6400x64, S6400x64] S6400x128 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  bcast_S_S50000x128 : S_.BroadcastsInDim S50000x128 (![] : Fin 0 → Fin S50000x128.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x4_S5000x4_0_0 : ∀ a, (![0, 0] : Fin 2 → Nat) a + S5000x4.size a ≤ S5000x4.size a
  h_S5000x4 : 0 < S5000x4.numel
  slices_S5000x4_o0_0_S5000x1 : S5000x4.Slices ![0, 0] S5000x1
  broadcasts_S5000x1_S5000x128 : S5000x1.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  natLt_1_32 : 1 < 32
  shapeCasts_S128x128_S128x128 : S128x128.ShapeCasts S128x128
  gather_S50000x64_S1600000x1_S1600000x64_1_0_n_n_0_1_164_wf : GatherDims.WF S50000x64 S1600000x1 S1600000x64 [1] [0] [] [0] [] 1 ![1, 64]
  dot_S6400x128_S128x128_S6400x128_1_0_0_1_n_n_wf : DotDims.WF S6400x128 S128x128 S6400x128 [1] [0] [0] [1] [] []
  scatter_S50000x128_S1600000x1_S1600000x128_1_0_0_1_wf : ScatterDims.WF S50000x128 S1600000x1 S1600000x128 [1] [0] [0] 1
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S1600000x128.size a
  hwx0_6 : ∀ i : grid0.Coords, EltTy.bits .f32 = 32 ∨ (Rect.block (s := S1600000x128) S6400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x4.size a ≤ S50000x4.size a
  hwx1_1 : ∀ i : grid1.Coords, EltTy.bits .f32 = 32 ∨ (Rect.block (s := S50000x4) S5000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .i32 = 32 ∨ (Rect.block (s := S50000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_v4) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x4 : Shape := ⟨2, ![50000, 4]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x128 : Shape := ⟨2, ![1, 128]⟩
abbrev S50000x128 : Shape := ⟨2, ![50000, 128]⟩
abbrev S50000x1 : Shape := ⟨2, ![50000, 1]⟩

abbrev nBuf : Space → Nat
  | .hbm => 56
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x4, .f32⟩
  | .hbm, ⟨2, _⟩ => ⟨S2x1600000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S1600000x64, .f32⟩
  | .hbm, ⟨31, _⟩ => ⟨S1600000x128, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S1x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S50000x128, .f32⟩
  | .hbm, ⟨45, _⟩ => ⟨S1600000x1, .i32⟩
  | .hbm, ⟨46, _⟩ => ⟨S50000x128, .f32⟩
  | .hbm, ⟨47, _⟩ => ⟨S50000x1, .f32⟩
  | .hbm, ⟨48, _⟩ => ⟨S50000, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S128x128, .f32⟩
  | .hbm, ⟨54, _⟩ => ⟨S50000x1, .i32⟩
  | .hbm, ⟨55, _⟩ => ⟨S128x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S50000x128 : S_.BroadcastsInDim S50000x128 (![] : Fin 0 → Fin S50000x128.rank)
  slices_S50000x4_S50000x1_0_0 : S50000x4.Slices ![0, 0] S50000x1
  shapeCasts_S50000x1_S50000 : S50000x1.ShapeCasts S50000
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S128x128 : S_.BroadcastsInDim S128x128 (![] : Fin 0 → Fin S128x128.rank)
  gather_S50000x64_S1600000x1_S1600000x64_1_0_n_n_0_1_164_wf : GatherDims.WF S50000x64 S1600000x1 S1600000x64 [1] [0] [] [0] [] 1 ![1, 64]
  dot_S1600000x128_S128x128_S1600000x128_1_0_0_1_n_n_wf : DotDims.WF S1600000x128 S128x128 S1600000x128 [1] [0] [0] [1] [] []
  scatter_S50000x128_S1600000x1_S1600000x128_1_0_0_1_wf : ScatterDims.WF S50000x128 S1600000x1 S1600000x128 [1] [0] [0] 1
  scatter_S128x128_S50000x1_S50000x128_1_0_0_1_wf : ScatterDims.WF S128x128 S50000x1 S50000x128 [1] [0] [0] 1

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.Spec.lean ====
/-
  The common value of the two programs, index by index, on the extended reals.

  An edge `e` carries the row `a = x_i[e]` (the target node's features) and the row `b = x_j[e] - x_i[e]`. Its message is
  the two-layer perceptron of the concatenated row `[a, b]`:
    `msg e d = (∑ k, max ((∑ j, [a, b] j * W1 j k) + b1 k) 0 * W2 k d) + b2 d`.
  A node's feature `H n d` is the sum of the messages of the edges whose target is `n`, and the result pools the nodes of a
  graph `g`, each weighted by the first column of `p`:
    `out g d = ∑ n, [batch n = g] * (H n d * p n 0)`
  with the bracket read as `1` or `0`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shapes of the arrays the value is stated over. -/
abbrev SE64 : Shape := ⟨2, ![1600000, 64]⟩
abbrev SE128 : Shape := ⟨2, ![1600000, 128]⟩
abbrev SW : Shape := ⟨2, ![128, 128]⟩
abbrev SB : Shape := ⟨1, ![128]⟩
abbrev SN128 : Shape := ⟨2, ![50000, 128]⟩
abbrev SN4 : Shape := ⟨2, ![50000, 4]⟩
abbrev SN1 : Shape := ⟨2, ![50000, 1]⟩

/-- The concatenated row `[a, b]` of two rows of 64. -/
def catRow (a b : Fin 64 → EReal) (j : Fin 128) : EReal :=
  if h : j.val < 64 then a ⟨j.val, h⟩ else b ⟨j.val - 64, by omega⟩

/-- The two-layer perceptron of the concatenated row `[a, b]`, at output column `d`. -/
def mlpRow (W1 : FVec Ideal SW .f32) (b1 : FVec Ideal SB .f32) (W2 : FVec Ideal SW .f32) (b2 : FVec Ideal SB .f32)
    (a b : Fin 64 → EReal) (d : Fin 128) : EReal :=
  (∑ k : Fin 128, max ((∑ j : Fin 128, catRow a b j * W1 (ix2 j k)) + b1 (ix1 k)) 0 * W2 (ix2 k d)) + b2 (ix1 d)

/-- Row `e` of an array of 64-wide rows. -/
def row64 (A : FVec Ideal SE64 .f32) (e : Fin 1600000) : Fin 64 → EReal := fun j => A (ix2 e j)

/-- The edge messages: row `e` is the perceptron of row `e` of `A` beside row `e` of `B`. -/
def msg (A B : FVec Ideal SE64 .f32) (W1 : FVec Ideal SW .f32) (b1 : FVec Ideal SB .f32) (W2 : FVec Ideal SW .f32)
    (b2 : FVec Ideal SB .f32) : FVec Ideal SE128 .f32 := fun i =>
  mlpRow W1 b1 W2 b2 (row64 A ⟨(i 0).val, idx2_lt0 i⟩) (row64 B ⟨(i 0).val, idx2_lt0 i⟩) ⟨(i 1).val, idx2_lt1 i⟩

/-- Whether the word `b` names graph `g`, as the number `1` or `0`. -/
def oh (b : BitVec 32) (g : Fin 128) : EReal := if b = BitVec.ofNat 32 g.val then 1 else 0

/-- The pooled result: at `(g, d)` the sum over the nodes `n` of graph `g` of `H n d * P n 0`. -/
def pool (H : FVec Ideal SN128 .f32) (P : FVec Ideal SN4 .f32) (B : IVec SN1 32) : FVec Ideal SW .f32 := fun i =>
  ∑ n : Fin 50000, oh (B (ix2 n (0 : Fin 1))) ⟨(i 0).val, idx2_lt0 i⟩ *
    (H (ix2 n (⟨(i 1).val, idx2_lt1 i⟩ : Fin 128)) * P (ix2 n (0 : Fin 4)))

end Cert.Spec

end
-- ==== Proof.HostTerms.lean ====
/-
  The host operations both programs share, as functions of whole arrays, in the vocabulary of the kernel's program.

  `srcOf` / `dstOf`: the two rows of `edge_index`. `normv`: an index with the array's extent added when it is negative.
  `gatherRows x iv`: row `e` is row `normv iv e` of `x`, the row number clamped into the array. `takeRows x iv`: the same rows,
  but a row whose number is outside `[0, 49999]` is filled with the fill value. `segSum idx M`: row `n` is the sum of the rows `e`
  of `M` with `idx e = n`. `kernelValue` and `refValue` are the two programs' results as functions of the arguments.
-/
import proofs.«423337_j24172075941939_1_alg».proof.KernelIdeal
import proofs.«423337_j24172075941939_1_alg».proof.Proof.Gen.KernelIdeal
import proofs.«423337_j24172075941939_1_alg».proof.Proof.Spec

noncomputable section

namespace Cert.KernelIdeal.HostTerms

open Idealize.ShloMosaic Idealize.ShloMosaic.ValueIdx Cert.KernelIdeal
open Cert.KernelIdeal.Facts₀ Cert.KernelIdeal.Facts

/-- Row 0 of `edge_index`: the source node of each edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of `edge_index`: the target node of each edge. -/
def dstOf (ei : IVec S2x1600000 32) : IVec S1600000 32 :=
  shapeCast S1600000 (extractStridedSlice S1x1600000 ![1, 0] ei slices_S2x1600000_S1x1600000_1_0) shapeCasts_S1x1600000_S1600000

/-- A negative index counts from the end: 50000 is added to it. -/
def normv (iv : IVec S1600000 32) : IVec S1600000 32 :=
  select (cmpi .slt iv (broadcastInDim S1600000 ![] bcast_S_S1600000 (constantI S_ 32 0#32)))
    (addi iv (broadcastInDim S1600000 ![] bcast_S_S1600000 (constantI S_ 32 50000#32))) iv

/-- The normalised indices as a column of start indices. -/
def idxcol (iv : IVec S1600000 32) : IVec S1600000x1 32 :=
  broadcastInDim S1600000x1 ![0] bcast_S1600000_S1600000x1_0 (normv iv)

/-- The rows of `x` the indices name (the row number clamped into the array). -/
def gatherRows (x : FVec Ideal S50000x64 .f32) (iv : IVec S1600000 32) : FVec Ideal S1600000x64 .f32 :=
  Host.gather gather_S50000x64_S1600000x1_S1600000x64_1_0_n_n_0_1_164 x (idxcol iv)

/-- Whether each normalised index lies in `[0, 49999]`. -/
def inRange (iv : IVec S1600000 32) : IVec S1600000 1 :=
  Host.reduce IntOp.andi
    (andi (cmpi .sge (idxcol iv) (broadcastInDim S1600000x1 ![] bcast_S_S1600000x1 (constantI S_ 32 0#32)))
      (cmpi .sle (idxcol iv) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The rows of `x` the indices name, a row whose number is out of range filled with the fill value. -/
def takeRows (x : FVec Ideal S50000x64 .f32) (iv : IVec S1600000 32) : FVec Ideal S1600000x64 .f32 :=
  select (broadcastInDim S1600000x64 ![0] bcast_S1600000_S1600000x64_0 (inRange iv)) (gatherRows x iv)
    (broadcastInDim S1600000x64 ![] bcast_S_S1600000x64 (constant (F := Ideal) S_ .f32 0x7FC00000#32))

/-- The sum of the rows of `M` by target: row `n` is the sum of the rows `e` with `idx e = n` (a row whose target is outside
    the array is dropped). -/
def segSum (idx : IVec S1600000 32) (M : FVec Ideal S1600000x128 .f32) : FVec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 idx) M

/-- The kernel program's result as a function of the arguments. -/
def kernelValue (x : FVec Ideal S50000x64 .f32) (p : FVec Ideal S50000x4 .f32) (ei : IVec S2x1600000 32) (batch : IVec S50000 32)
    (W1 : FVec Ideal S128x128 .f32) (b1 : FVec Ideal S128 .f32) (W2 : FVec Ideal S128x128 .f32) (b2 : FVec Ideal S128 .f32) :
    FVec Ideal S128x128 .f32 :=
  Cert.Spec.pool
    (segSum (dstOf ei) (Cert.Spec.msg (takeRows x (dstOf ei)) (subf (takeRows x (srcOf ei)) (takeRows x (dstOf ei))) W1 b1 W2 b2))
    p (shapeCast S50000x1 batch shapeCasts_S50000_S50000x1)

end Cert.KernelIdeal.HostTerms

end
-- ==== Proof.Region0.lean ====
/-
  The first kernel region (the per-edge perceptron over 250 blocks of 6400 edges): the array it leaves is the message array
  `Cert.Spec.msg` of the two input arrays of rows it was entered with and the four weight arrays.

  The steps. The body's stored block read at a row and a column is the perceptron of the two input blocks' rows there
  (`payload_at`: the two products are plain contractions over the 128 joined or hidden entries, the changes of format are the
  identity, the biases are spread over the rows). At point `t` the two input blocks are rows `6400 t … 6400 t + 6399` of the
  two arrays of rows and the four weight blocks are the whole weight arrays (`rows0_at` … `weights5_eq`), so what point `t`
  writes back is block `t` of the message array (`flushed_eq`); row `e` of the output lies in the block of point `e / 6400`
  (`covered`), hence the array after the last point is the message array (`value`).
-/
import proofs.«423337_j24172075941939_1_alg».proof.Proof.Gen.KernelIdeal.Frame
import proofs.«423337_j24172075941939_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

variable (V : (c : Dev nD) → (b : Ref sig .tc) → Buf (Elt Ideal) ((c : Thread nD τ).loc b))

/-! ## The contraction of the kernel's two products, axis by axis -/

theorem lhs_axis0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs_axis1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_axis0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_axis1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- A product of a block of 6400 rows with a 128 × 128 matrix into the zero accumulator, at row `r` and column `d`:
    the sum over `k` of the row's entry `k` times the matrix's entry `(k, d)`. -/
theorem matmul_at {φ₁ φ₂ : FTy} (lhs : FVec Ideal S6400x128 φ₁) (rhs : FVec Ideal S128x128 φ₂) (r : Fin 6400) (d : Fin 128) :
    matmul dot_S6400x128_S128x128_S6400x128_1_0_0_1_n_n none lhs rhs (constant (F := Ideal) S6400x128 .f32 0x00000000#32) (ix2 r d)
      = ∑ k : Fin 128, lhs (ix2 r k) * rhs (ix2 k d) := by
  refine (Ideal.matmul_constant_zero_apply dot_S6400x128_S128x128_S6400x128_1_0_0_1_n_n none lhs rhs (ix2 r d)).trans ?_
  rw [← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 r d) ((ValueIdx.contrEquiv1 dot_S6400x128_S128x128_S6400x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S6400x128_S128x128_S6400x128_1_0_0_1_n_n.rhsIdx (ix2 r d) ((ValueIdx.contrEquiv1 dot_S6400x128_S128x128_S6400x128_1_0_0_1_n_n 128 rfl rfl).symm k) = ix2 k d := funext fun a => Fin.ext (by
    match a with
    | ⟨0, _⟩ => exact (rhs_axis0 _ _).trans hk
    | ⟨1, _⟩ => exact rhs_axis1 _ _)
  rw [el, er]

/-! ## The body's stored block at a row and a column -/

/-- The two 64-wide rows side by side: the joined block at row `r`, column `j`. -/
theorem concat_at (x y : S6400x64.Idx → EReal) (r : Fin 6400) (j : Fin 128) :
    concatenate S6400x128 1 [⟨S6400x64, x⟩, ⟨S6400x64, y⟩] concatenates_S6400x64_S6400x64_S6400x128_d1 (ix2 r j)
      = Cert.Spec.catRow (fun c => x (ix2 r c)) (fun c => y (ix2 r c)) j := by
  unfold Cert.Spec.catRow
  by_cases h : j.val < 64
  · rw [dif_pos h]
    refine concatenate_pair_apply_left (1 : Fin S6400x128.rank) x y concatenates_S6400x64_S6400x64_S6400x128_d1 (ix2 r j) rfl (ix2 r ⟨j.val, h⟩) fun b => ?_
    match b with
    | ⟨0, _⟩ => rfl
    | ⟨1, _⟩ => rfl
  · rw [dif_neg h]
    refine concatenate_pair_apply_right (1 : Fin S6400x128.rank) x y concatenates_S6400x64_S6400x64_S6400x128_d1 (ix2 r j) rfl rfl (ix2 r ⟨j.val - 64, by omega⟩) (fun b hb => ?_) ?_
    · match b with
      | ⟨0, _⟩ => rfl
      | ⟨1, _⟩ => exact absurd rfl hb
    · show j.val - 64 + 64 = j.val
      omega

/-- A bias of 128 entries spread over the 6400 rows, at row `r` and column `d`. -/
theorem bias_at (b : S128.Idx → EReal) (r : Fin 6400) (d : Fin 128) :
    broadcastTo S6400x128 (shapeCast S1x128 b shapeCasts_S128_S1x128) broadcasts_S1x128_S6400x128 (ix2 r d) = b (ix1 d) :=
  (broadcastTo_1b_ab_apply (shapeCast S1x128 b shapeCasts_S128_S1x128) broadcasts_S1x128_S6400x128 r d).trans
    (shapeCast_a_1a_apply b shapeCasts_S128_S1x128 (0 : Fin 1) d)

/-- THE BODY'S STORED BLOCK at row `r`, column `d`: the perceptron of row `r` of the first input block beside row `r` of the
    second. -/
theorem payload_at (v0 v2 : Vec Ideal S6400x64 .f32) (v6 : Vec Ideal S128x128 .f32) (v9 : Vec Ideal S128 .f32)
    (v16 : Vec Ideal S128x128 .f32) (v19 : Vec Ideal S128 .f32) (r : Fin 6400) (d : Fin 128) :
    k0_pay1 (F := Ideal) v0 v2 v6 v9 v16 v19 (ix2 r d)
      = Cert.Spec.mlpRow v6 v9 v16 v19 (fun j => v0 (ix2 r j)) (fun j => v2 (ix2 r j)) d := by
  unfold k0_pay1 Cert.Spec.mlpRow
  refine congrArg₂ (· + ·) ?_ (bias_at v19 r d)
  refine (matmul_at _ _ r d).trans ?_
  refine Finset.sum_congr rfl fun k _ => ?_
  refine congrArg₂ (· * ·) ?_ rfl
  refine congrArg₂ max ?_ Ideal.ofBits_zero_f32
  refine congrArg₂ (· + ·) ?_ (bias_at v9 r k)
  refine (matmul_at _ _ r k).trans ?_
  refine Finset.sum_congr rfl fun j _ => ?_
  refine congrArg₂ (· * ·) ?_ rfl
  rw [shapeCast_self, shapeCast_self]
  exact concat_at v0 v2 r j

/-! ## The blocks at a point -/

theorem zero2 : (![0, 0] : Fin 2 → Nat) = fun _ => 0 := funext fun a => by fin_cases a <;> rfl
theorem zero1 : (![0] : Fin 1 → Nat) = fun _ => 0 := funext fun a => by fin_cases a <;> rfl

/-- Two functions of a rank-2 index that agree at every pair of coordinates are equal. -/
theorem ext_ix2 {n0 n1 : Nat} {α : Type} (f g : (⟨2, ![n0, n1]⟩ : Shape).Idx → α)
    (h : ∀ (p : Fin n0) (q : Fin n1), f (ix2 p q) = g (ix2 p q)) : f = g :=
  funext fun i => by rw [eq_ix2 i]; exact h _ _
theorem ext_ix1 {n : Nat} {α : Type} (f g : (⟨1, ![n]⟩ : Shape).Idx → α)
    (h : ∀ p : Fin n, f (ix1 p) = g (ix1 p)) : f = g :=
  funext fun i => by rw [eq_ix1 i]; exact h _

/-- The index maps over the grid: the three windows of rows are at block `(t, 0)` at point `t`, the four weight windows at
    block zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `r` of the first input block at point `t` is row `6400 t + r` of the first array of rows. -/
theorem rows0_at (c : Dev nD) (t : Fin cfg0.N) (r : Fin 6400) (j : Fin 64) (e : Fin 1600000) (he : e.val = 6400 * t.val + r.val) :
    (iblk0 V c 0 t : Vec Ideal S6400x64 .f32) (ix2 r j) = (V c main_v4 : Vec Ideal S1600000x64 .f32) (ix2 e j) := by
  obtain ⟨h0, h1, -⟩ := index_facts t
  unfold iblk0
  rw [View.read_apply]
  show V c main_v4 _ = V c main_v4 _
  congr 1
  funext a
  apply Fin.ext
  match a with
  | ⟨0, _⟩ => show win0_0.index t (0 : Fin 2) * 6400 + 1 * r.val = e.val; rw [h0, he]; omega
  | ⟨1, _⟩ => show win0_0.index t (1 : Fin 2) * 64 + 1 * j.val = j.val; rw [h1]; omega

/-- Row `r` of the second input block at point `t` is row `6400 t + r` of the second array of rows. -/
theorem rows1_at (c : Dev nD) (t : Fin cfg0.N) (r : Fin 6400) (j : Fin 64) (e : Fin 1600000) (he : e.val = 6400 * t.val + r.val) :
    (iblk0 V c 1 t : Vec Ideal S6400x64 .f32) (ix2 r j) = (V c main_v6 : Vec Ideal S1600000x64 .f32) (ix2 e j) := by
  obtain ⟨-, -, h0, h1, -⟩ := index_facts t
  unfold iblk0
  rw [View.read_apply]
  show V c main_v6 _ = V c main_v6 _
  congr 1
  funext a
  apply Fin.ext
  match a with
  | ⟨0, _⟩ => show win0_1.index t (0 : Fin 2) * 6400 + 1 * r.val = e.val; rw [h0, he]; omega
  | ⟨1, _⟩ => show win0_1.index t (1 : Fin 2) * 64 + 1 * j.val = j.val; rw [h1]; omega

/-- The four weight windows hold their whole arrays at every point. -/
theorem weights2_eq (c : Dev nD) (t : Fin cfg0.N) :
    (iblk0 V c 2 t : Vec Ideal S128x128 .f32) = (V c main_arg4 : Vec Ideal S128x128 .f32) := by
  obtain ⟨-, -, -, -, h0, h1, -⟩ := index_facts t
  refine ext_ix2 _ _ fun p q => ?_
  unfold iblk0
  rw [View.read_apply]
  show V c main_arg4 _ = V c main_arg4 _
  congr 1
  funext a
  apply Fin.ext
  match a with
  | ⟨0, _⟩ => show win0_2.index t (0 : Fin 2) * 128 + 1 * p.val = p.val; rw [h0]; omega
  | ⟨1, _⟩ => show win0_2.index t (1 : Fin 2) * 128 + 1 * q.val = q.val; rw [h1]; omega
theorem weights3_eq (c : Dev nD) (t : Fin cfg0.N) :
    (iblk0 V c 3 t : Vec Ideal S128 .f32) = (V c main_arg5 : Vec Ideal S128 .f32) := by
  obtain ⟨-, -, -, -, -, -, h0, -⟩ := index_facts t
  refine ext_ix1 _ _ fun p => ?_
  unfold iblk0
  rw [View.read_apply]
  show V c main_arg5 _ = V c main_arg5 _
  congr 1
  funext a
  apply Fin.ext
  match a with
  | ⟨0, _⟩ => show win0_3.index t (0 : Fin 1) * 128 + 1 * p.val = p.val; rw [h0]; omega
theorem weights4_eq (c : Dev nD) (t : Fin cfg0.N) :
    (iblk0 V c 4 t : Vec Ideal S128x128 .f32) = (V c main_arg6 : Vec Ideal S128x128 .f32) := by
  obtain ⟨-, -, -, -, -, -, -, h0, h1, -⟩ := index_facts t
  refine ext_ix2 _ _ fun p q => ?_
  unfold iblk0
  rw [View.read_apply]
  show V c main_arg6 _ = V c main_arg6 _
  congr 1
  funext a
  apply Fin.ext
  match a with
  | ⟨0, _⟩ => show win0_4.index t (0 : Fin 2) * 128 + 1 * p.val = p.val; rw [h0]; omega
  | ⟨1, _⟩ => show win0_4.index t (1 : Fin 2) * 128 + 1 * q.val = q.val; rw [h1]; omega
theorem weights5_eq (c : Dev nD) (t : Fin cfg0.N) :
    (iblk0 V c 5 t : Vec Ideal S128 .f32) = (V c main_arg7 : Vec Ideal S128 .f32) := by
  obtain ⟨-, -, -, -, -, -, -, -, -, h0, -⟩ := index_facts t
  refine ext_ix1 _ _ fun p => ?_
  unfold iblk0
  rw [View.read_apply]
  show V c main_arg7 _ = V c main_arg7 _
  congr 1
  funext a
  apply Fin.ext
  match a with
  | ⟨0, _⟩ => show win0_5.index t (0 : Fin 1) * 128 + 1 * p.val = p.val; rw [h0]; omega

/-- The stored block of a point whose input blocks are rows `6400 n + r` of two arrays of rows and whose weight blocks are
    the weight arrays: at row `r`, column `d` it is the message array at row `6400 n + r`, column `d`. -/
theorem stored_at (x0 x1 : Vec Ideal S6400x64 .f32) (x2 : Vec Ideal S128x128 .f32) (x3 : Vec Ideal S128 .f32)
    (x4 : Vec Ideal S128x128 .f32) (x5 : Vec Ideal S128 .f32)
    (A B : FVec Ideal Cert.Spec.SE64 .f32) (W1 : FVec Ideal Cert.Spec.SW .f32) (b1 : FVec Ideal Cert.Spec.SB .f32)
    (W2 : FVec Ideal Cert.Spec.SW .f32) (b2 : FVec Ideal Cert.Spec.SB .f32) (n : Nat)
    (h0 : ∀ (r : Fin 6400) (j : Fin 64) (e : Fin 1600000), e.val = 6400 * n + r.val → x0 (ix2 r j) = A (ix2 e j))
    (h1 : ∀ (r : Fin 6400) (j : Fin 64) (e : Fin 1600000), e.val = 6400 * n + r.val → x1 (ix2 r j) = B (ix2 e j))
    (h2 : x2 = W1) (h3 : x3 = b1) (h4 : x4 = W2) (h5 : x5 = b2)
    (r : Fin 6400) (d : Fin 128) (e : Fin 1600000) (he : e.val = 6400 * n + r.val) :
    k0_pay1 (F := Ideal) x0 x1 x2 x3 x4 x5 (ix2 r d) = Cert.Spec.msg A B W1 b1 W2 b2 (ix2 e d) := by
  subst h2 h3 h4 h5
  rw [payload_at]
  unfold Cert.Spec.msg Cert.Spec.row64
  have ha : (fun j => x0 (ix2 r j)) = fun j => A (ix2 e j) := funext fun j => h0 r j e he
  have hb : (fun j => x1 (ix2 r j)) = fun j => B (ix2 e j) := funext fun j => h1 r j e he
  rw [ha, hb]

/-- WHAT POINT `t` WRITES BACK is block `t` of the message array of the arrays the region was entered with. -/
theorem flushed_eq (c : Dev nD) (t : Fin cfg0.N) :
    (dat0 (F := Ideal) V c).flushed 6 t = ((cfg0.win 6).blk t).view.read (Elt Ideal)
      (Cert.Spec.msg (V c main_v4) (V c main_v6) (V c main_arg4) (V c main_arg5) (V c main_arg6) (V c main_arg7)) := by
  show (cfg0.win 6).cut (grid0.coords t) ((dat0 V c).after 6 t) = _
  rw [after0_6]
  unfold out0_6
  rw [View.canon_unit_zero zero2]
  simp only [View.ld_unit_zero (S := S6400x64) zero2, View.ld_unit_zero (S := S128x128) zero2, View.ld_unit_zero (S := S128) zero1]
  have ht : t.val < 250 := Nat.lt_of_lt_of_eq t.isLt (show cfg0.N = 250 from N_0)
  obtain ⟨-, -, -, -, -, -, -, -, -, -, h0, h1⟩ := index_facts t
  refine ext_ix2 _ _ fun r d => ?_
  have hr : r.val < 6400 := r.isLt
  show k0_pay1 (F := Ideal) (iblk0 V c 0 t) (iblk0 V c 1 t) (iblk0 V c 2 t) (iblk0 V c 3 t) (iblk0 V c 4 t) (iblk0 V c 5 t) (ix2 r d)
    = Cert.Spec.msg (V c main_v4) (V c main_v6) (V c main_arg4) (V c main_arg5) (V c main_arg6) (V c main_arg7) (((cfg0.win 6).blk t).view.emb (ix2 r d))
  refine (stored_at (iblk0 V c 0 t) (iblk0 V c 1 t) (iblk0 V c 2 t) (iblk0 V c 3 t) (iblk0 V c 4 t) (iblk0 V c 5 t)
    (V c main_v4) (V c main_v6) (V c main_arg4) (V c main_arg5) (V c main_arg6) (V c main_arg7) t.val
    (fun r j e he => rows0_at V c t r j e he) (fun r j e he => rows1_at V c t r j e he)
    (weights2_eq V c t) (weights3_eq V c t) (weights4_eq V c t) (weights5_eq V c t) r d ⟨6400 * t.val + r.val, by omega⟩ rfl).trans ?_
  refine congrArg (Cert.Spec.msg (V c main_v4) (V c main_v6) (V c main_arg4) (V c main_arg5) (V c main_arg6) (V c main_arg7)) ?_
  funext a
  apply Fin.ext
  match a with
  | ⟨0, _⟩ => show 6400 * t.val + r.val = win0_6.index t (0 : Fin 2) * 6400 + 1 * r.val; rw [h0]; omega
  | ⟨1, _⟩ => show d.val = win0_6.index t (1 : Fin 2) * 128 + 1 * d.val; rw [h1]; omega

/-! ## From the blocks to the array -/

/-- A row-and-column index of the output array is in point `t`'s block iff each coordinate is in the block's range on its axis. -/
theorem mem_block (t : Fin cfg0.N) (i : S1600000x128.Idx) :
    i ∈ ((cfg0.win 6).blk t).view.set ↔ ∀ a : Fin 2, win0_6.index t a * S6400x128.size a ≤ (i a).val ∧ (i a).val < win0_6.index t a * S6400x128.size a + S6400x128.size a := by
  show i ∈ ((View.whole main_v7).slice (win0_6.rect t)).set ↔ _
  rw [View.set_slice_whole, Rect.mem_set_unit]
  exact Iff.rfl

/-- Every row `e` of the output array is in the block of point `e / 6400`, which writes back. -/
theorem covered (i : S1600000x128.Idx) :
    ∃ t : Fin cfg0.N, (cfg0.win 6).flush t = true ∧ i ∈ ((cfg0.win 6).blk t).view.set := by
  have hi0 : (i 0).val < 1600000 := (i 0).isLt
  have hi1 : (i 1).val < 128 := (i 1).isLt
  have hN : cfg0.N = 250 := N_0
  refine ⟨⟨(i 0).val / 6400, by rw [hN]; omega⟩, flush0_6 _, ?_⟩
  rw [mem_block]
  obtain ⟨-, -, -, -, -, -, -, -, -, -, h0, h1⟩ := index_facts ⟨(i 0).val / 6400, by rw [hN]; omega⟩
  intro a
  match a with
  | ⟨0, _⟩ =>
    show win0_6.index _ (0 : Fin 2) * 6400 ≤ (i 0).val ∧ (i 0).val < win0_6.index _ (0 : Fin 2) * 6400 + 6400
    rw [h0]
    show (i 0).val / 6400 * 6400 ≤ (i 0).val ∧ (i 0).val < (i 0).val / 6400 * 6400 + 6400
    omega
  | ⟨1, _⟩ =>
    show win0_6.index _ (1 : Fin 2) * 128 ≤ (i 1).val ∧ (i 1).val < win0_6.index _ (1 : Fin 2) * 128 + 128
    rw [h1]
    omega

/-- After the region's 250 points its output array holds the messages of the arrays it was entered with. -/
theorem value (c : Dev nD) :
    (dat0 (F := Ideal) V c).arrAt 6 cfg0.N
      = Cert.Spec.msg (V c main_v4) (V c main_v6) (V c main_arg4) (V c main_arg5) (V c main_arg6) (V c main_arg7) := by
  exact (dat0 (F := Ideal) V c).arrAt_eq_of_cover 6
    (Cert.Spec.msg (V c main_v4) (V c main_v6) (V c main_arg4) (V c main_arg5) (V c main_arg6) (V c main_arg7))
    (fun t _ => flushed_eq V c t) covered

end Cert.KernelIdeal.Region0

end
-- ==== Proof.Region1.lean ====
/-
  The second kernel region (the pooling over 10 blocks of 5000 nodes, accumulated in the one output block): the array it
  leaves is `Cert.Spec.pool` of the three input arrays it was entered with.
-/
import proofs.«423337_j24172075941939_1_alg».proof.Proof.Gen.KernelIdeal.Frame
import proofs.«423337_j24172075941939_1_alg».proof.Proof.Spec
import Idealize.ShloMosaic.Lib.Pipeline.Value
import Idealize.ShloMosaic.Lib.ValueLayout

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

variable (V : (c : Dev nD) → (b : Ref sig .tc) → Buf (Elt Ideal) ((c : Thread nD τ).loc b))

section Pieces
variable {F : FTy → Type} [FloatOps F]

theorem hz : (![0, 0] : Fin 2 → Nat) = fun _ => 0 := funext fun a => by fin_cases a <;> rfl

/-- A point that is not the first leaves, in the output block holding `xo`, the update of `xo` by the point's three blocks. -/
theorem out_B (c : Dev nD) (i : grid1.Coords) (a1 : Memref sig .tc .vmem S5000x128 .f32) (h1 : a1.IsWhole)
    (a2 : Memref sig .tc .vmem S5000x4 .f32) (h2 : a2.IsWhole) (a3 : Memref sig .tc .vmem S5000x1 .i32) (h3 : a3.IsWhole)
    (a4 : Memref sig .tc .vmem S128x128 .f32) (h4 : a4.IsWhole) (hc : ¬cond1_0 i)
    (x0 : Vec F S5000x128 .f32) (x1 : Vec F S5000x4 .f32) (x2 : Vec F S5000x1 .i32) (xo : Vec F S128x128 .f32) :
    out1_B_3 c i a1 h1 a2 h2 a3 h3 a4 h4 hc x0 x1 x2 xo = k1_pay2 x0 x1 x2 xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero hz]
  simp only [View.readAt_eq_ld, h1.read_unread, h2.read_unread, h3.read_unread, h4.read_unread,
    View.ld_unit_zero (S := S5000x128) hz, View.ld_unit_zero (S := S5000x4) hz, View.ld_unit_zero (S := S5000x1) hz,
    View.ld_unit_zero (S := S128x128) hz]

/-- The first point sets the output block to zero and then updates it by the point's three blocks. -/
theorem out_A (c : Dev nD) (i : grid1.Coords) (a1 : Memref sig .tc .vmem S5000x128 .f32) (h1 : a1.IsWhole)
    (a2 : Memref sig .tc .vmem S5000x4 .f32) (h2 : a2.IsWhole) (a3 : Memref sig .tc .vmem S5000x1 .i32) (h3 : a3.IsWhole)
    (a4 : Memref sig .tc .vmem S128x128 .f32) (h4 : a4.IsWhole) (hc : cond1_0 i)
    (x0 : Vec F S5000x128 .f32) (x1 : Vec F S5000x4 .f32) (x2 : Vec F S5000x1 .i32) :
    out1_A_3 c i a1 h1 a2 h2 a3 h3 a4 h4 hc x0 x1 x2 = k1_pay2 x0 x1 x2 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S128x128) hz, View.readCov_unit_zero (S := S128x128) _ hz]
  simp only [View.readAt_eq_ld, h1.read_unread, h2.read_unread, h3.read_unread,
    View.ld_unit_zero (S := S5000x128) hz, View.ld_unit_zero (S := S5000x4) hz, View.ld_unit_zero (S := S5000x1) hz]

end Pieces

/-! ## The update at an index -/

/-- The update's product contracts both operands on their rows: where its operand indices sit, axis by axis. -/
theorem lhs_D1_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_D1_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_D1_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_D1_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- A product into the zero block, contracted over the rows: at `(g, d)` the sum over the rows `r` of the left operand at
    `(r, g)` times the right at `(r, d)`. -/
theorem matmul_rows_apply (L R : FVec Ideal S5000x128 .bf16) (g d : Fin 128) :
    FloatOps.matmul dot_S5000x128_S5000x128_S128x128_0_0_1_1_n_n none L R (constant S128x128 .f32 0x00000000#32) (ix2 g d)
      = ∑ r : Fin 5000, L (ix2 r g) * R (ix2 r d) := by
  rw [Ideal.matmul_constant_zero_apply, ← Equiv.sum_comp (ValueIdx.contrEquiv1 dot_S5000x128_S5000x128_S128x128_0_0_1_1_n_n 5000 rfl rfl).symm]
  refine Finset.sum_congr rfl fun k _ => ?_
  have hk := ValueIdx.contrEquiv1_symm_val dot_S5000x128_S5000x128_S128x128_0_0_1_1_n_n 5000 rfl rfl k
  have el : dot_S5000x128_S5000x128_S128x128_0_0_1_1_n_n.lhsIdx (ix2 g d) ((ValueIdx.contrEquiv1 dot_S5000x128_S5000x128_S128x128_0_0_1_1_n_n 5000 rfl rfl).symm k) = ix2 k g := funext fun a => Fin.ext (by
    match a with
    | ⟨0, _⟩ => exact (lhs_D1_0 _ _).trans hk
    | ⟨1, _⟩ => exact lhs_D1_1 _ _)
  have er : dot_S5000x128_S5000x128_S128x128_0_0_1_1_n_n.rhsIdx (ix2 g d) ((ValueIdx.contrEquiv1 dot_S5000x128_S5000x128_S128x128_0_0_1_1_n_n 5000 rfl rfl).symm k) = ix2 k d := funext fun a => Fin.ext (by
    match a with
    | ⟨0, _⟩ => exact (rhs_D1_0 _ _).trans hk
    | ⟨1, _⟩ => exact rhs_D1_1 _ _)
  rw [el, er]

/-- A compared bit, widened to 32 bits and read signed, is `1` or `0`. -/
theorem widened_bit (a b : BitVec 32) :
    (((IntOp.cmpi .eq a b).setWidth 32).toInt : ℝ) = if a = b then (1 : ℝ) else 0 := by
  show (((BitVec.ofBool (a == b)).setWidth 32).toInt : ℝ) = _
  by_cases h : a = b
  · rw [if_pos h, beq_iff_eq.mpr h, show ((BitVec.ofBool true).setWidth 32).toInt = 1 from by decide, Int.cast_one]
  · rw [if_neg h, beq_eq_false_iff_ne.mpr h, show ((BitVec.ofBool false).setWidth 32).toInt = 0 from by decide, Int.cast_zero]

/-- The left operand of the update at `(r, g)`: whether row `r`'s word names graph `g`, as `1` or `0`. -/
theorem onehot_apply (x2 : Vec Ideal S5000x1 .i32) (r : Fin 5000) (g : Fin 128) :
    (truncf .bf16 (sitofp (F := Ideal) .f32 (extui 32 (cmpi .eq (broadcastTo S5000x128 (shapeCast S5000x1 x2 shapeCasts_S5000x1_S5000x1) broadcasts_S5000x1_S5000x128)
      (iota .tc S5000x128 32 [1] iota_S5000x128_d1_w32)) natLt_1_32)) bitsLt_bf16_f32 : FVec Ideal S5000x128 .bf16) (ix2 r g)
      = Cert.Spec.oh (x2 (ix2 r (0 : Fin 1))) g := by
  rw [truncf_apply, sitofp_apply, extui_apply]
  show FloatOps.sitofp .f32 ((IntOp.cmpi .eq (broadcastTo S5000x128 (shapeCast S5000x1 x2 shapeCasts_S5000x1_S5000x1) broadcasts_S5000x1_S5000x128 (ix2 r g))
      (iota .tc S5000x128 32 [1] iota_S5000x128_d1_w32 (ix2 r g))).setWidth 32) = _
  rw [shapeCast_self, iota_single_apply,
    broadcastTo_apply x2 broadcasts_S5000x1_S5000x128 (ix2 r g) (ix2 r (0 : Fin 1)) (fun a => by
      match a with
      | ⟨0, _⟩ => rfl
      | ⟨1, _⟩ => rfl)]
  show (((((IntOp.cmpi .eq (x2 (ix2 r (0 : Fin 1))) (BitVec.ofNat 32 g.val)).setWidth 32).toInt : ℝ)) : EReal) = _
  rw [widened_bit]
  unfold Cert.Spec.oh
  split <;> simp

/-- The right operand of the update at `(r, d)`: row `r` of the first block at `d`, weighted by the first column of the second. -/
theorem weighted_apply (x0 : Vec Ideal S5000x128 .f32) (x1 : Vec Ideal S5000x4 .f32) (r : Fin 5000) (d : Fin 128) :
    (truncf .bf16 (mulf (shapeCast S5000x128 x0 shapeCasts_S5000x128_S5000x128)
        (broadcastTo S5000x128 (extractStridedSlice S5000x1 ![0, 0] x1 slices_S5000x4_o0_0_S5000x1) broadcasts_S5000x1_S5000x128)) bitsLt_bf16_f32
      : FVec Ideal S5000x128 .bf16) (ix2 r d) = x0 (ix2 r d) * x1 (ix2 r (0 : Fin 4)) := by
  rw [truncf_apply, mulf_apply, shapeCast_self,
    broadcastTo_apply _ broadcasts_S5000x1_S5000x128 (ix2 r d) (ix2 r (0 : Fin 1)) (fun a => by
      match a with
      | ⟨0, _⟩ => rfl
      | ⟨1, _⟩ => rfl),
    slice2_axis1_apply 0 x1 slices_S5000x4_o0_0_S5000x1 r (0 : Fin 1) (0 : Fin 4) rfl]

/-- The update at `(g, d)`: the block's entry plus the sum over the 5000 rows of the point's blocks. -/
theorem pay2_apply (x0 : Vec Ideal S5000x128 .f32) (x1 : Vec Ideal S5000x4 .f32) (x2 : Vec Ideal S5000x1 .i32)
    (xo : Vec Ideal S128x128 .f32) (g d : Fin 128) :
    k1_pay2 (F := Ideal) x0 x1 x2 xo (ix2 g d)
      = xo (ix2 g d) + ∑ r : Fin 5000, Cert.Spec.oh (x2 (ix2 r (0 : Fin 1))) g * (x0 (ix2 r d) * x1 (ix2 r (0 : Fin 4))) := by
  unfold k1_pay2
  refine (congrArg₂ (· + ·) (congrFun (shapeCast_self xo shapeCasts_S128x128_S128x128) (ix2 g d)) (matmul_rows_apply _ _ g d)).trans ?_
  refine congrArg (xo (ix2 g d) + ·) (Finset.sum_congr rfl fun r _ => ?_)
  rw [onehot_apply, weighted_apply]

/-- The block the first point starts from is zero. -/
theorem pay1_apply (g d : Fin 128) : k1_pay1 (F := Ideal) (ix2 g d) = 0 := by
  unfold k1_pay1
  exact Ideal.ofBits_zero_f32

/-! ## The three arrays and their blocks -/

/-- The node features, the weights and the graph-id column the region was entered with. -/
abbrev Harr (c : Dev nD) : FVec Ideal Cert.Spec.SN128 .f32 := V c main_v10
abbrev Parr (c : Dev nD) : FVec Ideal Cert.Spec.SN4 .f32 := V c main_arg1
abbrev Barr (c : Dev nD) : IVec Cert.Spec.SN1 32 := V c main_v11

/-- Their blocks of 5000 rows at point `t`. -/
abbrev hblk (c : Dev nD) (t : Fin cfg1.N) : Vec Ideal S5000x128 .f32 := iblk1 V c 0 t
abbrev pblk (c : Dev nD) (t : Fin cfg1.N) : Vec Ideal S5000x4 .f32 := iblk1 V c 1 t
abbrev bblk (c : Dev nD) (t : Fin cfg1.N) : Vec Ideal S5000x1 .i32 := iblk1 V c 2 t

/-- The block indices over the grid: the three inputs' row block is the point, the output's block never moves. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- Row `r` of the point's block of node features is row `5000 t + r` of the array. -/
theorem hblk_apply (c : Dev nD) (t : Fin cfg1.N) (r : Fin 5000) (d : Fin 128) (n : Fin 50000) (hn : n.val = 5000 * t.val + r.val) :
    hblk V c t (ix2 r d) = Harr V c (ix2 n d) := by
  show iblk1 V c 0 t (ix2 r d) = V c main_v10 (ix2 n d)
  unfold iblk1
  rw [View.read_apply]
  show V c main_v10 _ = V c main_v10 _
  congr 1
  funext a
  apply Fin.ext
  match a with
  | ⟨0, _⟩ => show win1_0.index t (0 : Fin 2) * 5000 + 1 * r.val = n.val; rw [(idx_facts t).1, hn]; omega
  | ⟨1, _⟩ => show win1_0.index t (1 : Fin 2) * 128 + 1 * d.val = d.val; rw [(idx_facts t).2.1]; omega

/-- Row `r` of the point's block of weights is row `5000 t + r` of the array. -/
theorem pblk_apply (c : Dev nD) (t : Fin cfg1.N) (r : Fin 5000) (d : Fin 4) (n : Fin 50000) (hn : n.val = 5000 * t.val + r.val) :
    pblk V c t (ix2 r d) = Parr V c (ix2 n d) := by
  show iblk1 V c 1 t (ix2 r d) = V c main_arg1 (ix2 n d)
  unfold iblk1
  rw [View.read_apply]
  show V c main_arg1 _ = V c main_arg1 _
  congr 1
  funext a
  apply Fin.ext
  match a with
  | ⟨0, _⟩ => show win1_1.index t (0 : Fin 2) * 5000 + 1 * r.val = n.val; rw [(idx_facts t).2.2.1, hn]; omega
  | ⟨1, _⟩ => show win1_1.index t (1 : Fin 2) * 4 + 1 * d.val = d.val; rw [(idx_facts t).2.2.2.1]; omega

/-- Row `r` of the point's block of graph ids is row `5000 t + r` of the column. -/
theorem bblk_apply (c : Dev nD) (t : Fin cfg1.N) (r : Fin 5000) (d : Fin 1) (n : Fin 50000) (hn : n.val = 5000 * t.val + r.val) :
    bblk V c t (ix2 r d) = Barr V c (ix2 n d) := by
  show iblk1 V c 2 t (ix2 r d) = V c main_v11 (ix2 n d)
  unfold iblk1
  rw [View.read_apply]
  show V c main_v11 _ = V c main_v11 _
  congr 1
  funext a
  apply Fin.ext
  match a with
  | ⟨0, _⟩ => show win1_2.index t (0 : Fin 2) * 5000 + 1 * r.val = n.val; rw [(idx_facts t).2.2.2.2.1, hn]; omega
  | ⟨1, _⟩ => show win1_2.index t (1 : Fin 2) * 1 + 1 * d.val = d.val; rw [(idx_facts t).2.2.2.2.2.1]; omega

/-! ## The running sums -/

/-- Node `n`'s contribution to the pooled entry `(g, d)`. -/
def term (H : FVec Ideal Cert.Spec.SN128 .f32) (P : FVec Ideal Cert.Spec.SN4 .f32) (B : IVec Cert.Spec.SN1 32)
    (g d : Fin 128) (n : Fin 50000) : EReal :=
  Cert.Spec.oh (B (ix2 n (0 : Fin 1))) g * (H (ix2 n d) * P (ix2 n (0 : Fin 4)))

/-- Node `r` of block `t`. -/
def node (t : Fin 10) (r : Fin 5000) : Fin 50000 := ⟨5000 * t.val + r.val, by have := t.isLt; have := r.isLt; omega⟩

/-- The contribution of the 5000 nodes of block `t`. -/
def blockSum (H : FVec Ideal Cert.Spec.SN128 .f32) (P : FVec Ideal Cert.Spec.SN4 .f32) (B : IVec Cert.Spec.SN1 32)
    (g d : Fin 128) (t : Fin 10) : EReal :=
  ∑ r : Fin 5000, term H P B g d (node t r)

/-- The contributions of the blocks below `m`. -/
def upTo (H : FVec Ideal Cert.Spec.SN128 .f32) (P : FVec Ideal Cert.Spec.SN4 .f32) (B : IVec Cert.Spec.SN1 32)
    (g d : Fin 128) (m : ℕ) : EReal :=
  ∑ t ∈ Finset.range m, if h : t < 10 then blockSum H P B g d ⟨t, h⟩ else 0

theorem upTo_succ (H : FVec Ideal Cert.Spec.SN128 .f32) (P : FVec Ideal Cert.Spec.SN4 .f32) (B : IVec Cert.Spec.SN1 32)
    (g d : Fin 128) (m : ℕ) (h : m < 10) : upTo H P B g d (m + 1) = upTo H P B g d m + blockSum H P B g d ⟨m, h⟩ := by
  unfold upTo
  rw [Finset.sum_range_succ, dif_pos h]

/-- All ten blocks together are all 50000 nodes: node `n` is node `n % 5000` of block `n / 5000`. -/
theorem upTo_ten (H : FVec Ideal Cert.Spec.SN128 .f32) (P : FVec Ideal Cert.Spec.SN4 .f32) (B : IVec Cert.Spec.SN1 32)
    (g d : Fin 128) : upTo H P B g d 10 = ∑ n : Fin 50000, term H P B g d n := by
  unfold upTo
  rw [← Fin.sum_univ_eq_sum_range (fun t => if h : t < 10 then blockSum H P B g d ⟨t, h⟩ else 0) 10]
  have e := Equiv.sum_comp (finProdFinEquiv : Fin 10 × Fin 5000 ≃ Fin 50000) (fun n => term H P B g d n)
  rw [← e, Fintype.sum_prod_type]
  refine Finset.sum_congr rfl fun t _ => ?_
  rw [dif_pos t.isLt]
  unfold blockSum
  refine Finset.sum_congr rfl fun r _ => ?_
  refine congrArg (term H P B g d) (Fin.ext ?_)
  show 5000 * t.val + r.val = r.val + 5000 * t.val
  omega

/-! ## The output block after each point -/

/-- A point's update sums its block's contribution. -/
theorem block_contrib (c : Dev nD) (t : Fin cfg1.N) (h : t.val < 10) (g d : Fin 128) :
    ∑ r : Fin 5000, Cert.Spec.oh (bblk V c t (ix2 r (0 : Fin 1))) g * (hblk V c t (ix2 r d) * pblk V c t (ix2 r (0 : Fin 4)))
      = blockSum (Harr V c) (Parr V c) (Barr V c) g d ⟨t.val, h⟩ := by
  unfold blockSum term
  refine Finset.sum_congr rfl fun r _ => ?_
  rw [hblk_apply V c t r d (node ⟨t.val, h⟩ r) rfl, pblk_apply V c t r 0 (node ⟨t.val, h⟩ r) rfl,
    bblk_apply V c t r 0 (node ⟨t.val, h⟩ r) rfl]

/-- After point `n` the output block holds the contributions of blocks `0` to `n`: by induction on the point. -/
theorem outsAt_eq (c : Dev nD) : ∀ (n : ℕ) (hn : n < cfg1.N) (g d : Fin 128),
    outsAt1 V c n hn (ix2 g d) = upTo (Harr V c) (Parr V c) (Barr V c) g d (n + 1)
  | 0, hn, g, d => by
    have e0 : outsAt1 V c 0 hn = k1_pay2 (hblk V c ⟨0, hn⟩) (pblk V c ⟨0, hn⟩) (bblk V c ⟨0, hn⟩) (k1_pay1 (F := Ideal)) :=
      (outsAt1_A V c ⟨0, hn⟩ rfl).trans
        (out_A (F := Ideal) c (grid1.coords ⟨0, hn⟩) (ms1_0 ⟨0, hn⟩) (hs1_0 ⟨0, hn⟩) (ms1_1 ⟨0, hn⟩) (hs1_1 ⟨0, hn⟩) (ms1_2 ⟨0, hn⟩)
          (hs1_2 ⟨0, hn⟩) (ms1_3 ⟨0, hn⟩) (hs1_3 ⟨0, hn⟩) ((hcond1_0 ⟨0, hn⟩).mpr rfl) (hblk V c ⟨0, hn⟩) (pblk V c ⟨0, hn⟩)
          (bblk V c ⟨0, hn⟩))
    rw [e0, pay2_apply, pay1_apply, zero_add, block_contrib V c ⟨0, hn⟩ (show (0 : ℕ) < 10 from by decide) g d,
      upTo_succ _ _ _ g d 0 (by decide)]
    unfold upTo
    rw [Finset.sum_range_zero, zero_add]
  | n + 1, hn, g, d => by
    have hN : n + 1 < 10 := lt_of_lt_of_eq hn (show cfg1.N = 10 from N_1)
    have hB : ¬(⟨n + 1, hn⟩ : Fin cfg1.N).val % 10 = 0 := by dsimp only; omega
    have e1 : outsAt1 V c (n + 1) hn
        = k1_pay2 (hblk V c ⟨n + 1, hn⟩) (pblk V c ⟨n + 1, hn⟩) (bblk V c ⟨n + 1, hn⟩) (outsAt1 V c n (Nat.lt_of_succ_lt hn)) :=
      (outsAt1_B V c ⟨n + 1, hn⟩ hB).trans
        (out_B (F := Ideal) c (grid1.coords ⟨n + 1, hn⟩) (ms1_0 ⟨n + 1, hn⟩) (hs1_0 ⟨n + 1, hn⟩) (ms1_1 ⟨n + 1, hn⟩) (hs1_1 ⟨n + 1, hn⟩)
          (ms1_2 ⟨n + 1, hn⟩) (hs1_2 ⟨n + 1, hn⟩) (ms1_3 ⟨n + 1, hn⟩) (hs1_3 ⟨n + 1, hn⟩) (fun h => hB ((hcond1_0 ⟨n + 1, hn⟩).mp h))
          (hblk V c ⟨n + 1, hn⟩) (pblk V c ⟨n + 1, hn⟩) (bblk V c ⟨n + 1, hn⟩) (outsAt1 V c n (Nat.lt_of_succ_lt hn)))
    rw [e1, pay2_apply, outsAt_eq c n (Nat.lt_of_succ_lt hn) g d, block_contrib V c ⟨n + 1, hn⟩ hN g d,
      upTo_succ _ _ _ g d (n + 1) hN]

/-- After the last point the output block holds the pooled sums. -/
theorem last_eq (c : Dev nD) (h : 9 < cfg1.N) :
    outsAt1 V c 9 h = Cert.Spec.pool (Harr V c) (Parr V c) (Barr V c) := by
  funext i
  obtain ⟨g, d, rfl⟩ : ∃ (g : Fin 128) (d : Fin 128), i = ix2 g d := ⟨_, _, eq_ix2 i⟩
  rw [outsAt_eq V c 9 h g d, upTo_ten]
  rfl

/-! ## The output array -/

/-- The one write-back, after the last point, writes the pooled sums: the output's one block is the whole array. -/
theorem flushed_eq (c : Dev nD) (t : Fin cfg1.N) (hf : (cfg1.win 3).flush t = true) :
    (dat1 V c).flushed 3 t
      = ((cfg1.win 3).blk t).view.read (Elt Ideal) (Cert.Spec.pool (Harr V c) (Parr V c) (Barr V c)) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3, show outsAt1 V c t1_9.val t1_9.isLt = Cert.Spec.pool (Harr V c) (Parr V c) (Barr V c) from last_eq V c t1_9.isLt]
  have hz' : (fun a => win1_3.index t1_9 a * main_v12.ty.shape.size a) = fun _ => 0 := funext fun a => by fin_cases a <;> decide
  exact (Memref.read_access_unit_zero (Elt Ideal) main_v12 hz' (fun a => by rw [congrFun hz' a]; simp)
    (Cert.Spec.pool (Harr V c) (Parr V c) (Barr V c))).symm

/-- After the region's 10 points its output array holds the pooled sums of the arrays it was entered with. -/
theorem value (c : Dev nD) :
    (dat1 (F := Ideal) V c).arrAt 3 cfg1.N = Cert.Spec.pool (V c main_v10) (V c main_arg1) (V c main_v11) :=
  (dat1 V c).arrAt_eq_of_cover 3 (Cert.Spec.pool (Harr V c) (Parr V c) (Barr V c)) (flushed_eq V c) fun i =>
    ⟨t1_9, (flush1_3 t1_9).mpr rfl, by
      show i ∈ ((View.whole main_v12).slice (win1_3.rect t1_9)).set
      rw [View.set_slice_whole, Rect.mem_set_unit]
      intro a
      have h0 : (i 0 : Nat) < 128 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 128 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

end Cert.KernelIdeal.Region1

end
-- ==== Proof.KernelValue.lean ====
/-
  The kernel program's result buffer after the run, as a function of the arguments: the host operations before the first
  region gather (and fill) the rows, the first region leaves the messages, the host sums them by target node, and the second
  region pools them.
-/
import proofs.«423337_j24172075941939_1_alg».proof.Proof.Gen.KernelIdeal.Frame
import proofs.«423337_j24172075941939_1_alg».proof.Proof.HostTerms
import proofs.«423337_j24172075941939_1_alg».proof.Proof.Region0
import proofs.«423337_j24172075941939_1_alg».proof.Proof.Region1
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.KernelIdeal.HostTerms

/-- A buffer that no operation of a stretch writes keeps its contents across the stretch. -/
local macro "keep_buf" : tactic => `(tactic| (
  refine StableHlo.after_of_forall_not_mem _ _ (List.forall_iff_forall_mem.mp ?_)
  simp only [hostOps0, hostOps0_1, hostOps0_2, hostOps0_3, hostOps1, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Each stretch of host operations, from any contents `U` -/

/-- Reading a value back at the type it was written at is the identity. -/
theorem ofBuf_toBuf {Val : EltTy → Type} {T : BufTy} (x : TRef sig T) (v : T.Contents Val) : x.ofBuf (x.toBuf v) = v := by
  obtain ⟨r, rfl, _, _⟩ := x; rfl

/-- At a buffer whose type is the value's type, reading and writing are the identity. -/
theorem ofBuf_v3 (h1 h2 h3) (v : (⟨S1600000, .i32⟩ : BufTy).Contents (Elt Ideal)) :
    (TRef.of main_v3 h1 h2 h3 : TRef sig ⟨S1600000, .i32⟩).ofBuf (Val := Elt Ideal) v = v := rfl
theorem ofBuf_v1 (h1 h2 h3) (v : (⟨S1600000, .i32⟩ : BufTy).Contents (Elt Ideal)) :
    (TRef.of main_v1 h1 h2 h3 : TRef sig ⟨S1600000, .i32⟩).ofBuf (Val := Elt Ideal) v = v := rfl
theorem ofBuf_arg0 (h1 h2 h3) (v : (⟨S50000x64, .f32⟩ : BufTy).Contents (Elt Ideal)) :
    (TRef.of main_arg0 h1 h2 h3 : TRef sig ⟨S50000x64, .f32⟩).ofBuf (Val := Elt Ideal) v = v := rfl
theorem toBuf_v4 (h1 h2 h3) (v : (⟨S1600000x64, .f32⟩ : BufTy).Contents (Elt Ideal)) :
    (TRef.of main_v4 h1 h2 h3 : TRef sig ⟨S1600000x64, .f32⟩).toBuf (Val := Elt Ideal) v = v := rfl
theorem toBuf_v5 (h1 h2 h3) (v : (⟨S1600000x64, .f32⟩ : BufTy).Contents (Elt Ideal)) :
    (TRef.of main_v5 h1 h2 h3 : TRef sig ⟨S1600000x64, .f32⟩).toBuf (Val := Elt Ideal) v = v := rfl

section Stretches

variable (U : Valuation τ sig (Elt Ideal))

/-- The first stretch splits `edge_index` into its two rows. -/
theorem ops0_v1 : StableHlo.after (hostOps0 (F := Ideal)) U (Proc.devRef .tc main_v1) = srcOf (U (Proc.devRef .tc main_arg2)) := by
  after_results; rfl
theorem ops0_v3 : StableHlo.after (hostOps0 (F := Ideal)) U (Proc.devRef .tc main_v3) = dstOf (U (Proc.devRef .tc main_arg2)) := by
  after_results; rfl

set_option maxHeartbeats 2000000 in
/-- The second stretch takes the target rows. -/
theorem ops01_v4 : StableHlo.after (hostOps0_1 (F := Ideal)) U (Proc.devRef .tc main_v4)
    = takeRows (U (Proc.devRef .tc main_arg0)) (U (Proc.devRef .tc main_v3)) := by
  unfold takeRows inRange gatherRows idxcol normv
  after_results_simp
  simp only [ofBuf_toBuf]
  rw [toBuf_v4]
  simp only [ofBuf_v3, ofBuf_arg0]

set_option maxHeartbeats 2000000 in
/-- The third stretch takes the source rows. -/
theorem ops02_v5 : StableHlo.after (hostOps0_2 (F := Ideal)) U (Proc.devRef .tc main_v5)
    = takeRows (U (Proc.devRef .tc main_arg0)) (U (Proc.devRef .tc main_v1)) := by
  unfold takeRows inRange gatherRows idxcol normv
  after_results_simp
  simp only [ofBuf_toBuf]
  rw [toBuf_v5]
  simp only [ofBuf_v1, ofBuf_arg0]

/-- The fourth stretch subtracts the target rows from the source rows. -/
theorem ops03_v6 : StableHlo.after (hostOps0_3 (F := Ideal)) U (Proc.devRef .tc main_v6)
    = subf (F := Ideal) (s := S1600000x64) (φ := .f32) (U (Proc.devRef .tc main_v5)) (U (Proc.devRef .tc main_v4)) := by
  after_results

/-- The stretch between the regions sums the messages by target node and makes the graph ids a column. -/
theorem ops1_v10 : StableHlo.after (hostOps1 (F := Ideal)) U (Proc.devRef .tc main_v10)
    = segSum (U (Proc.devRef .tc main_v3)) (U (Proc.devRef .tc main_v7)) := by
  after_results; rfl
theorem ops1_v11 : StableHlo.after (hostOps1 (F := Ideal)) U (Proc.devRef .tc main_v11)
    = shapeCast S50000x1 (U (Proc.devRef .tc main_arg3)) Facts₀.shapeCasts_S50000_S50000x1 := by
  after_results; rfl

end Stretches

variable (m : (ℓ : Loc nD τ sig) → Buf (Elt Ideal) ℓ) (ρ : Dev nD → PrngReg)

/-! ## The contents at the first region's entry -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0); keep_buf
theorem W1_v1 (c : Dev nD) : W1 m ρ c (Proc.devRef .tc main_v1) = srcOf (m ((c : Thread nD τ).loc main_arg2)) :=
  ops0_v1 (W0 m ρ c)
theorem W1_v3 (c : Dev nD) : W1 m ρ c (Proc.devRef .tc main_v3) = dstOf (m ((c : Thread nD τ).loc main_arg2)) :=
  ops0_v3 (W0 m ρ c)

theorem W2_v4 (c : Dev nD) : W2 m ρ c (Proc.devRef .tc main_v4)
    = takeRows (m ((c : Thread nD τ).loc main_arg0)) (dstOf (m ((c : Thread nD τ).loc main_arg2))) :=
  (ops01_v4 (W1 m ρ c)).trans (by rw [W1_arg0 m ρ c, W1_v3 m ρ c])
theorem W2_arg0 (c : Dev nD) : W2 m ρ c (Proc.devRef .tc main_arg0) = m ((c : Thread nD τ).loc main_arg0) := by
  refine Eq.trans ?_ (W1_arg0 m ρ c); show StableHlo.after hostOps0_1 (W1 m ρ c) (Proc.devRef .tc main_arg0) = W1 m ρ c (Proc.devRef .tc main_arg0); keep_buf
theorem W2_v1 (c : Dev nD) : W2 m ρ c (Proc.devRef .tc main_v1) = srcOf (m ((c : Thread nD τ).loc main_arg2)) := by
  refine Eq.trans ?_ (W1_v1 m ρ c); show StableHlo.after hostOps0_1 (W1 m ρ c) (Proc.devRef .tc main_v1) = W1 m ρ c (Proc.devRef .tc main_v1); keep_buf

theorem W3_v5 (c : Dev nD) : W3 m ρ c (Proc.devRef .tc main_v5)
    = takeRows (m ((c : Thread nD τ).loc main_arg0)) (srcOf (m ((c : Thread nD τ).loc main_arg2))) :=
  (ops02_v5 (W2 m ρ c)).trans (by rw [W2_arg0 m ρ c, W2_v1 m ρ c])
theorem W3_v4 (c : Dev nD) : W3 m ρ c (Proc.devRef .tc main_v4)
    = takeRows (m ((c : Thread nD τ).loc main_arg0)) (dstOf (m ((c : Thread nD τ).loc main_arg2))) := by
  refine Eq.trans ?_ (W2_v4 m ρ c); show StableHlo.after hostOps0_2 (W2 m ρ c) (Proc.devRef .tc main_v4) = W2 m ρ c (Proc.devRef .tc main_v4); keep_buf

theorem V4_v4 (c : Dev nD) : V4 m ρ c main_v4
    = takeRows (m ((c : Thread nD τ).loc main_arg0)) (dstOf (m ((c : Thread nD τ).loc main_arg2))) := by
  refine Eq.trans ?_ (W3_v4 m ρ c); show StableHlo.after hostOps0_3 (W3 m ρ c) (Proc.devRef .tc main_v4) = W3 m ρ c (Proc.devRef .tc main_v4); keep_buf
theorem V4_v6 (c : Dev nD) : V4 m ρ c main_v6
    = subf (takeRows (m ((c : Thread nD τ).loc main_arg0)) (srcOf (m ((c : Thread nD τ).loc main_arg2))))
        (takeRows (m ((c : Thread nD τ).loc main_arg0)) (dstOf (m ((c : Thread nD τ).loc main_arg2)))) :=
  (ops03_v6 (W3 m ρ c)).trans (by rw [W3_v5 m ρ c, W3_v4 m ρ c])

/-- A buffer none of the four stretches before the first region writes is, at its entry, as launched. -/
theorem W4_keep (c : Dev nD) (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b))
    (h3 : StableHlo.after hostOps0_3 (W3 m ρ c) (Proc.devRef .tc b) = W3 m ρ c (Proc.devRef .tc b)) :
    W4 m ρ c (Proc.devRef .tc b) = m ((c : Thread nD τ).loc b) :=
  h3.trans (h2.trans (h1.trans h0))

theorem W4_arg1 (c : Dev nD) : W4 m ρ c (Proc.devRef .tc main_arg1) = m ((c : Thread nD τ).loc main_arg1) :=
  W4_keep m ρ c main_arg1 (by keep_buf) (by keep_buf) (by keep_buf) (by keep_buf)
theorem W4_arg3 (c : Dev nD) : W4 m ρ c (Proc.devRef .tc main_arg3) = m ((c : Thread nD τ).loc main_arg3) :=
  W4_keep m ρ c main_arg3 (by keep_buf) (by keep_buf) (by keep_buf) (by keep_buf)
theorem V4_arg4 (c : Dev nD) : V4 m ρ c main_arg4 = m ((c : Thread nD τ).loc main_arg4) :=
  W4_keep m ρ c main_arg4 (by keep_buf) (by keep_buf) (by keep_buf) (by keep_buf)
theorem V4_arg5 (c : Dev nD) : V4 m ρ c main_arg5 = m ((c : Thread nD τ).loc main_arg5) :=
  W4_keep m ρ c main_arg5 (by keep_buf) (by keep_buf) (by keep_buf) (by keep_buf)
theorem V4_arg6 (c : Dev nD) : V4 m ρ c main_arg6 = m ((c : Thread nD τ).loc main_arg6) :=
  W4_keep m ρ c main_arg6 (by keep_buf) (by keep_buf) (by keep_buf) (by keep_buf)
theorem V4_arg7 (c : Dev nD) : V4 m ρ c main_arg7 = m ((c : Thread nD τ).loc main_arg7) :=
  W4_keep m ρ c main_arg7 (by keep_buf) (by keep_buf) (by keep_buf) (by keep_buf)
theorem W4_v3 (c : Dev nD) : W4 m ρ c (Proc.devRef .tc main_v3) = dstOf (m ((c : Thread nD τ).loc main_arg2)) := by
  refine Eq.trans ?_ (W1_v3 m ρ c)
  exact (by keep_buf : StableHlo.after hostOps0_3 (W3 m ρ c) (Proc.devRef .tc main_v3) = W3 m ρ c _).trans
    ((by keep_buf : StableHlo.after hostOps0_2 (W2 m ρ c) (Proc.devRef .tc main_v3) = W2 m ρ c _).trans
      (by keep_buf : StableHlo.after hostOps0_1 (W1 m ρ c) (Proc.devRef .tc main_v3) = W1 m ρ c _))

/-! ## The contents at the first region's exit and at the second region's entry -/

/-- The first region leaves the messages of the filled rows. -/
theorem W5_v7 (c : Dev nD) : W5 m ρ c (Proc.devRef .tc main_v7)
    = Cert.Spec.msg (takeRows (m ((c : Thread nD τ).loc main_arg0)) (dstOf (m ((c : Thread nD τ).loc main_arg2))))
        (subf (takeRows (m ((c : Thread nD τ).loc main_arg0)) (srcOf (m ((c : Thread nD τ).loc main_arg2))))
          (takeRows (m ((c : Thread nD τ).loc main_arg0)) (dstOf (m ((c : Thread nD τ).loc main_arg2)))))
        (m ((c : Thread nD τ).loc main_arg4)) (m ((c : Thread nD τ).loc main_arg5))
        (m ((c : Thread nD τ).loc main_arg6)) (m ((c : Thread nD τ).loc main_arg7)) := by
  refine (W5_arr m ρ c 6).trans ((Cert.KernelIdeal.Region0.value (V4 m ρ) c).trans ?_)
  rw [V4_v4 m ρ c, V4_v6 m ρ c, V4_arg4 m ρ c, V4_arg5 m ρ c, V4_arg6 m ρ c, V4_arg7 m ρ c]

theorem W5_v3 (c : Dev nD) : W5 m ρ c (Proc.devRef .tc main_v3) = dstOf (m ((c : Thread nD τ).loc main_arg2)) :=
  (W5_of_ne m ρ c main_v3 (by decide)).trans (W4_v3 m ρ c)
theorem W5_arg1 (c : Dev nD) : W5 m ρ c (Proc.devRef .tc main_arg1) = m ((c : Thread nD τ).loc main_arg1) :=
  (W5_of_ne m ρ c main_arg1 (by decide)).trans (W4_arg1 m ρ c)
theorem W5_arg3 (c : Dev nD) : W5 m ρ c (Proc.devRef .tc main_arg3) = m ((c : Thread nD τ).loc main_arg3) :=
  (W5_of_ne m ρ c main_arg3 (by decide)).trans (W4_arg3 m ρ c)

theorem V6_v10 (c : Dev nD) : V6 m ρ c main_v10
    = segSum (dstOf (m ((c : Thread nD τ).loc main_arg2)))
        (Cert.Spec.msg (takeRows (m ((c : Thread nD τ).loc main_arg0)) (dstOf (m ((c : Thread nD τ).loc main_arg2))))
          (subf (takeRows (m ((c : Thread nD τ).loc main_arg0)) (srcOf (m ((c : Thread nD τ).loc main_arg2))))
            (takeRows (m ((c : Thread nD τ).loc main_arg0)) (dstOf (m ((c : Thread nD τ).loc main_arg2)))))
          (m ((c : Thread nD τ).loc main_arg4)) (m ((c : Thread nD τ).loc main_arg5))
          (m ((c : Thread nD τ).loc main_arg6)) (m ((c : Thread nD τ).loc main_arg7))) := by
  refine (ops1_v10 (W5 m ρ c)).trans ?_
  rw [W5_v3 m ρ c, W5_v7 m ρ c]
theorem V6_v11 (c : Dev nD) : V6 m ρ c main_v11
    = shapeCast S50000x1 (m ((c : Thread nD τ).loc main_arg3)) Facts₀.shapeCasts_S50000_S50000x1 := by
  refine (ops1_v11 (W5 m ρ c)).trans ?_
  rw [W5_arg3 m ρ c]
theorem V6_arg1 (c : Dev nD) : V6 m ρ c main_arg1 = m ((c : Thread nD τ).loc main_arg1) := by
  refine Eq.trans ?_ (W5_arg1 m ρ c); show StableHlo.after hostOps1 (W5 m ρ c) (Proc.devRef .tc main_arg1) = W5 m ρ c (Proc.devRef .tc main_arg1); keep_buf

/-! ## The result -/

/-- The last boundary's contents at the result buffer are `kernelValue` of the launch memory's arguments. -/
theorem W7_result (c : Dev nD) :
    W7 (F := Ideal) m ρ c (Proc.devRef .tc main_v12)
      = kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W7_arr m ρ c 3).trans ((Cert.KernelIdeal.Region1.value (V6 m ρ) c).trans ?_)
  rw [V6_v10 m ρ c, V6_arg1 m ρ c, V6_v11 m ρ c]
  rfl

end Cert.KernelIdeal.KernelValue

end
-- ==== Proof.RefTerms.lean ====
/-
  The reference's last step as a function of whole arrays: the node features `H`, each row weighted by the first column of
  `p`, summed by graph (`poolRef`).
-/
import proofs.«423337_j24172075941939_1_alg».proof.ReferenceIdeal
import proofs.«423337_j24172075941939_1_alg».proof.Proof.Gen.ReferenceIdeal
import proofs.«423337_j24172075941939_1_alg».proof.Proof.Spec

noncomputable section

namespace Cert.ReferenceIdeal.RefTerms

open Idealize.ShloMosaic Idealize.ShloMosaic.ValueIdx Cert.ReferenceIdeal
open Cert.ReferenceIdeal.Facts₀ Cert.ReferenceIdeal.Facts

/-- The first column of `p` laid along every row of a 50000 × 128 array. -/
def weightRows (p : FVec Ideal S50000x4 .f32) : FVec Ideal S50000x128 .f32 :=
  broadcastInDim S50000x128 ![0, 1] bcast_S50000x1_S50000x128_0_1
    (broadcastInDim S50000x1 ![0] bcast_S50000_S50000x1_0
      (shapeCast S50000 (extractStridedSlice S50000x1 ![0, 0] p slices_S50000x4_S50000x1_0_0) shapeCasts_S50000x1_S50000))

/-- The weighted node features summed by graph: row `g` is the sum of the rows `n` of `p n 0 * H n` with `batch n = g`. -/
def poolRef (H : FVec Ideal S50000x128 .f32) (p : FVec Ideal S50000x4 .f32) (batch : IVec S50000 32) : FVec Ideal S128x128 .f32 :=
  Host.scatterAdd scatter_S128x128_S50000x1_S50000x128_1_0_0_1
    (broadcastInDim S128x128 ![] bcast_S_S128x128 (constant (F := Ideal) S_ .f32 0x00000000#32))
    (broadcastInDim S50000x1 ![0] bcast_S50000_S50000x1_0 batch)
    (mulf (weightRows p) H)

end Cert.ReferenceIdeal.RefTerms

end
-- ==== Proof.RefValue.lean ====
/-
  The reference's result, read back operation by operation: the edge messages are `Cert.Spec.msg` of the gathered target rows
  and the difference of the gathered source and target rows; they are summed by target node, weighted and summed by graph.
-/
import proofs.«423337_j24172075941939_1_alg».proof.Proof.Gen.ReferenceIdeal.Read
import proofs.«423337_j24172075941939_1_alg».proof.Proof.HostTerms
import proofs.«423337_j24172075941939_1_alg».proof.Proof.RefTerms
import Idealize.ShloMosaic.Lib.Pipeline.Value
import Idealize.ShloMosaic.Lib.ValueLayout

noncomputable section

open scoped BigOperators

namespace Cert.ReferenceIdeal.RefValue

open Idealize.ShloMosaic Idealize.ShloMosaic.ValueIdx Cert.ReferenceIdeal Cert.ReferenceIdeal.Read
open Cert.KernelIdeal.HostTerms Cert.ReferenceIdeal.RefTerms

/-- The reference's result as a function of the arguments. -/
def refValue (x : FVec Ideal S50000x64 .f32) (p : FVec Ideal S50000x4 .f32) (ei : IVec S2x1600000 32) (batch : IVec S50000 32)
    (W1 : FVec Ideal S128x128 .f32) (b1 : FVec Ideal S128 .f32) (W2 : FVec Ideal S128x128 .f32) (b2 : FVec Ideal S128 .f32) :
    FVec Ideal S128x128 .f32 :=
  poolRef
    (segSum (dstOf ei) (Cert.Spec.msg (gatherRows x (dstOf ei)) (subf (gatherRows x (srcOf ei)) (gatherRows x (dstOf ei))) W1 b1 W2 b2))
    p batch

/-! ### The index maps of the stages, at an index given by its coordinates -/

/-- The second product reads row `e` of the hidden layer at `k`. -/
theorem lidx25_eq (e : Fin 1600000) (d k : Fin 128) : lidx_main_v25 (ix2 e d) k = ix2 e k :=
  funext fun a => Fin.ext (by match a with | ⟨0, _⟩ => rfl | ⟨1, _⟩ => rfl)

/-- The second product reads `W2` at `(k, d)`. -/
theorem ridx25_eq (e : Fin 1600000) (d k : Fin 128) : ridx_main_v25 (ix2 e d) k = ix2 k d :=
  funext fun a => Fin.ext (by match a with | ⟨0, _⟩ => rfl | ⟨1, _⟩ => rfl)

/-- The first product reads row `e` of the joined rows at `k`. -/
theorem lidx20_eq (e : Fin 1600000) (d k : Fin 128) : lidx_main_v20 (ix2 e d) k = ix2 e k :=
  funext fun a => Fin.ext (by match a with | ⟨0, _⟩ => rfl | ⟨1, _⟩ => rfl)

/-- The first product reads `W1` at `(k, d)`. -/
theorem ridx20_eq (e : Fin 1600000) (d k : Fin 128) : ridx_main_v20 (ix2 e d) k = ix2 k d :=
  funext fun a => Fin.ext (by match a with | ⟨0, _⟩ => rfl | ⟨1, _⟩ => rfl)

/-- The second bias row, laid along the edges, is read at column `d`. -/
theorem bias27_eq (e : Fin 1600000) (d : Fin 128) : idx_main_v26 (idx_main_v27 (ix2 e d)) = ix1 d :=
  funext fun a => Fin.ext (by match a with | ⟨0, _⟩ => rfl)

/-- The first bias row, laid along the edges, is read at column `d`. -/
theorem bias22_eq (e : Fin 1600000) (d : Fin 128) : idx_main_v21 (idx_main_v22 (ix2 e d)) = ix1 d :=
  funext fun a => Fin.ext (by match a with | ⟨0, _⟩ => rfl)

/-- The joined rows: at a column below 64 the first operand's entry, else the second's, 64 columns back. -/
theorem cat_at (x0 : FVec Ideal S50000x64 .f32) (x2 : IVec S2x1600000 32) (e : Fin 1600000) (j : Fin 128) :
    val_main_v19 (F := Ideal) x0 x2 (ix2 e j) =
      Cert.Spec.catRow (Cert.Spec.row64 (val_main_v10 (F := Ideal) x0 x2) e) (Cert.Spec.row64 (val_main_v18 (F := Ideal) x0 x2) e) j := by
  unfold val_main_v19 Cert.Spec.catRow Cert.Spec.row64
  by_cases h : j.val < 64
  · rw [dif_pos h]
    exact concatenate_pair_apply_left 1 _ _ Facts₀.concatenates_S1600000x64_S1600000x64_S1600000x128_d1 (ix2 e j) rfl
      (ix2 e (⟨j.val, h⟩ : Fin 64)) (fun b => by match b with | ⟨0, _⟩ => rfl | ⟨1, _⟩ => rfl)
  · rw [dif_neg h]
    exact concatenate_pair_apply_right 1 _ _ Facts₀.concatenates_S1600000x64_S1600000x64_S1600000x128_d1 (ix2 e j) rfl rfl
      (ix2 e (⟨j.val - 64, by omega⟩ : Fin 64)) (fun b hb => by match b, hb with | ⟨0, _⟩, _ => rfl | ⟨1, _⟩, hb => exact absurd rfl hb)
      (by show (j.val - 64) + 64 = j.val; omega)

/-- The hidden layer at edge `e`, unit `k`. -/
theorem hidden_at (x0 : FVec Ideal S50000x64 .f32) (x2 : IVec S2x1600000 32) (x4 : FVec Ideal S128x128 .f32) (x5 : FVec Ideal S128 .f32)
    (e : Fin 1600000) (k : Fin 128) :
    val_main_v24 (F := Ideal) x0 x2 x4 x5 (ix2 e k) =
      max ((∑ j : Fin 128, Cert.Spec.catRow (Cert.Spec.row64 (val_main_v10 (F := Ideal) x0 x2) e)
        (Cert.Spec.row64 (val_main_v18 (F := Ideal) x0 x2) e) j * x4 (ix2 j k)) + x5 (ix1 k)) 0 := by
  rw [val_main_v24_apply, val_main_v23_apply, val_main_v20_apply, val_main_v22_apply, val_main_v21_apply,
    val_main_call0_v0_apply, val_main_call0_cst_apply, bias22_eq]
  simp only [lidx20_eq, ridx20_eq, cat_at, Ideal.addf_def, Ideal.maximumf_def, Ideal.ofBits_def, Ideal.ofBits_zero_f32]

/-- The edge messages are the perceptron of the joined rows. -/
theorem msg_eq (x0 : FVec Ideal S50000x64 .f32) (x2 : IVec S2x1600000 32) (x4 : FVec Ideal S128x128 .f32) (x5 : FVec Ideal S128 .f32)
    (x6 : FVec Ideal S128x128 .f32) (x7 : FVec Ideal S128 .f32) :
    val_main_v28 (F := Ideal) x0 x2 x4 x5 x6 x7 =
      Cert.Spec.msg (val_main_v10 (F := Ideal) x0 x2) (val_main_v18 (F := Ideal) x0 x2) x4 x5 x6 x7 := by
  funext i
  obtain ⟨e, d, rfl⟩ : ∃ (e : Fin 1600000) (d : Fin 128), i = ix2 e d := ⟨_, _, eq_ix2 i⟩
  rw [val_main_v28_apply, val_main_v25_apply, val_main_v27_apply, val_main_v26_apply, bias27_eq]
  simp only [lidx25_eq, ridx25_eq, hidden_at, Ideal.addf_def]
  rfl

/-! ### The outer stages are the array-level functions -/

/-- Row 1 of `edge_index`, as the reference slices it, is the targets. -/
theorem dst_eq (x2 : IVec S2x1600000 32) : val_main_v3 (F := Ideal) x2 = dstOf x2 := by
  unfold val_main_v3 val_main_v2 dstOf; rfl

/-- Row 0 of `edge_index`, as the reference slices it, is the sources. -/
theorem src_eq (x2 : IVec S2x1600000 32) : val_main_v1 (F := Ideal) x2 = srcOf x2 := by
  unfold val_main_v1 val_main_v0 srcOf; rfl

/-- The gathered target rows. -/
theorem gdst_eq (x0 : FVec Ideal S50000x64 .f32) (x2 : IVec S2x1600000 32) :
    val_main_v10 (F := Ideal) x0 x2 = gatherRows x0 (dstOf x2) := by
  rw [← dst_eq]
  unfold val_main_v10 val_main_v9 val_main_v8 val_main_v7 val_main_v6 val_main_v5 val_main_v4 val_main_c val_main_c_0
    gatherRows idxcol normv
  rfl

/-- The gathered source rows. -/
theorem gsrc_eq (x0 : FVec Ideal S50000x64 .f32) (x2 : IVec S2x1600000 32) :
    val_main_v17 (F := Ideal) x0 x2 = gatherRows x0 (srcOf x2) := by
  rw [← src_eq]
  unfold val_main_v17 val_main_v16 val_main_v15 val_main_v14 val_main_v13 val_main_v12 val_main_v11 val_main_c_1 val_main_c_2
    gatherRows idxcol normv
  rfl

/-- The difference of the gathered source and target rows. -/
theorem diff_eq (x0 : FVec Ideal S50000x64 .f32) (x2 : IVec S2x1600000 32) :
    val_main_v18 (F := Ideal) x0 x2 = subf (gatherRows x0 (srcOf x2)) (gatherRows x0 (dstOf x2)) := by
  unfold val_main_v18; rw [gsrc_eq, gdst_eq]

/-- The node features: the messages summed by target. -/
theorem seg_eq (x0 : FVec Ideal S50000x64 .f32) (x2 : IVec S2x1600000 32) (x4 : FVec Ideal S128x128 .f32) (x5 : FVec Ideal S128 .f32)
    (x6 : FVec Ideal S128x128 .f32) (x7 : FVec Ideal S128 .f32) :
    val_main_v31 (F := Ideal) x0 x2 x4 x5 x6 x7 = segSum (val_main_v3 (F := Ideal) x2) (val_main_v28 (F := Ideal) x0 x2 x4 x5 x6 x7) := by
  unfold val_main_v31 val_main_v30 val_main_v29 val_main_cst segSum; rfl

/-- The first column of `p` laid along the rows. -/
theorem weight_eq (x1 : FVec Ideal S50000x4 .f32) : val_main_v35 (F := Ideal) x1 = weightRows x1 := by
  unfold val_main_v35 val_main_v34 val_main_v33 val_main_v32 weightRows; rfl

/-- The result: the weighted node features summed by graph. -/
theorem pool_eq (x0 : FVec Ideal S50000x64 .f32) (x1 : FVec Ideal S50000x4 .f32) (x2 : IVec S2x1600000 32) (x3 : IVec S50000 32)
    (x4 : FVec Ideal S128x128 .f32) (x5 : FVec Ideal S128 .f32) (x6 : FVec Ideal S128x128 .f32) (x7 : FVec Ideal S128 .f32) :
    val_main_v39 (F := Ideal) x0 x1 x2 x3 x4 x5 x6 x7 = poolRef (val_main_v31 (F := Ideal) x0 x2 x4 x5 x6 x7) x1 x3 := by
  unfold val_main_v39 val_main_v38 val_main_v37 val_main_cst_3 val_main_v36 poolRef; rw [weight_eq]

/-- The reference's last stage is `refValue` of the arguments. -/
theorem result (x0 : FVec Ideal S50000x64 .f32) (x1 : FVec Ideal S50000x4 .f32) (x2 : IVec S2x1600000 32) (x3 : IVec S50000 32)
    (x4 : FVec Ideal S128x128 .f32) (x5 : FVec Ideal S128 .f32) (x6 : FVec Ideal S128x128 .f32) (x7 : FVec Ideal S128 .f32) :
    val_main_v39 (F := Ideal) x0 x1 x2 x3 x4 x5 x6 x7 = refValue x0 x1 x2 x3 x4 x5 x6 x7 := by
  unfold refValue
  rw [pool_eq, seg_eq, msg_eq, dst_eq, diff_eq, gdst_eq]

end Cert.ReferenceIdeal.RefValue

end
-- ==== Proof.PoolBridge.lean ====
/-
  Summing the weighted node features by graph is the pooled sum: at `(g, d)` the updates that land there are the rows `n` with
  `batch n = g`, column `d`, so the scatter's sum is `∑ n, [batch n = g] * (H n d * p n 0)`.
-/
import proofs.«423337_j24172075941939_1_alg».proof.Proof.RefTerms
import Idealize.ShloMosaic.Lib.Pipeline.Value
import Idealize.ShloMosaic.Lib.ValueLayout
import Idealize.ShloMosaic.Lib.StableHlo.Predicate

noncomputable section

open scoped BigOperators

namespace Cert.ReferenceIdeal.PoolBridge

open Idealize.ShloMosaic Idealize.ShloMosaic.ValueIdx Cert.ReferenceIdeal Cert.ReferenceIdeal.RefTerms
open Cert.ReferenceIdeal.Facts₀

/-- The scatter's dimension numbers: update `(n, d')` goes to row `idx n 0`, column `d'`. -/
abbrev D : ScatterDims S128x128 S50000x1 S50000x128 := scatter_S128x128_S50000x1_S50000x128_1_0_0_1

/-- Update `j = (n, d')` reads its start index at `(n, 0)` of the index column. -/
theorem siIdx_eq (j : S50000x128.Idx) (c : Fin D.scatterDimsToOperandDims.length) :
    D.siIdx j c = ix2 (⟨(j 0).val, idx2_lt0 j⟩ : Fin 50000) (0 : Fin 1) := by
  funext b
  match b with
  | ⟨0, _⟩ => rfl
  | ⟨1, _⟩ =>
    have hc : c.val < 1 := c.isLt
    exact Fin.ext (by
      simp only [ScatterDims.siIdx]
      rw [dif_pos (show 1 = D.indexVectorDim from rfl)]
      show c.val = 0
      omega)

/-- The operand's axes that carry a window coordinate: the columns alone. -/
theorem sKept_eq : D.sKept = [1] := by decide
/-- The operand's axes the start index names: the rows alone. -/
theorem sdto_eq : D.scatterDimsToOperandDims = [0] := rfl

/-- No window coordinate on the row axis. -/
theorem window0 (j : S50000x128.Idx) : D.window j 0 = 0 := by
  unfold ScatterDims.window
  rw [dif_neg (by rw [sKept_eq]; decide)]

/-- The window coordinate on the column axis is the update's column. -/
theorem window1 (j : S50000x128.Idx) : D.window j 1 = (j 1).val := by
  unfold ScatterDims.window
  rw [dif_pos (by rw [sKept_eq]; decide)]
  rfl

/-- No start on the column axis. -/
theorem start1 {w : Nat} (j : S50000x128.Idx) (idx : IVec S50000x1 w) : D.start j idx 1 = 0 := by
  unfold ScatterDims.start
  rw [dif_neg (by rw [sdto_eq]; decide)]

/-- The start on the row axis is the index word of the update's row, read signed. -/
theorem start0 {w : Nat} (j : S50000x128.Idx) (idx : IVec S50000x1 w) :
    D.start j idx 0 = (idx (ix2 (⟨(j 0).val, idx2_lt0 j⟩ : Fin 50000) (0 : Fin 1))).toInt := by
  unfold ScatterDims.start
  rw [dif_pos (by rw [sdto_eq]; decide)]
  rw [siIdx_eq]

/-- Update `j` lands at `i` exactly when its row's index word, read signed, is `i`'s row and its column is `i`'s column:
    a word outside `[0, 128)` lands nowhere, and no `i` has such a row. -/
theorem resultIdx_iff {w : Nat} (j : S50000x128.Idx) (idx : IVec S50000x1 w) (i : S128x128.Idx) :
    D.resultIdx? j idx = some i ↔
      (idx (ix2 (⟨(j 0).val, idx2_lt0 j⟩ : Fin 50000) (0 : Fin 1))).toInt = ((i 0).val : Int) ∧ (j 1).val = (i 1).val := by
  have hi0 : (i 0).val < 128 := idx2_lt0 i
  have hi1 : (i 1).val < 128 := idx2_lt1 i
  have hj1 : (j 1).val < 128 := idx2_lt1 j
  unfold ScatterDims.resultIdx?
  split
  · next hb =>
    rw [Option.some.injEq]
    constructor
    · intro e
      have e0 : (D.start j idx 0 + D.window j 0).toNat = (i 0).val := congrArg Fin.val (congrFun e 0)
      have e1 : (D.start j idx 1 + D.window j 1).toNat = (i 1).val := congrArg Fin.val (congrFun e 1)
      have h0 := (hb 0).1
      rw [start0, window0] at e0 h0
      rw [start1, window1] at e1
      constructor <;> omega
    · rintro ⟨e0, e1⟩
      funext a
      match a with
      | ⟨0, _⟩ =>
        apply Fin.ext
        show (D.start j idx 0 + D.window j 0).toNat = (i 0).val
        rw [start0, window0, e0]; omega
      | ⟨1, _⟩ =>
        apply Fin.ext
        show (D.start j idx 1 + D.window j 1).toNat = (i 1).val
        rw [start1, window1]; omega
  · next hb =>
    constructor
    · intro e; cases e
    · rintro ⟨e0, e1⟩
      exfalso; apply hb
      intro a
      match a with
      | ⟨0, _⟩ =>
        show 0 ≤ D.start j idx 0 + D.window j 0 ∧ D.start j idx 0 + D.window j 0 < ((128 : Nat) : Int)
        rw [start0, window0, e0]; omega
      | ⟨1, _⟩ =>
        show 0 ≤ D.start j idx 1 + D.window j 1 ∧ D.start j idx 1 + D.window j 1 < ((128 : Nat) : Int)
        rw [start1, window1]; omega

/-- The same over coordinates: update `(n, d')` lands at `(g, d)` exactly when row `n`'s word is `g` and `d' = d`. -/
theorem lands_iff {w : Nat} (idx : IVec S50000x1 w) (n : Fin 50000) (d' g d : Fin 128) :
    D.resultIdx? (ix2 n d') idx = some (ix2 g d) ↔
      (idx (ix2 n (0 : Fin 1))).toInt = (g.val : Int) ∧ d'.val = d.val :=
  resultIdx_iff (ix2 n d') idx (ix2 g d)

/-- A 32-bit word read signed is a number `g < 128` exactly when it is the word of `g`. -/
theorem toInt_eq_iff (b : BitVec 32) (g : Nat) (hg : g < 128) : b.toInt = (g : Int) ↔ b = BitVec.ofNat 32 g := by
  have hs : (BitVec.ofNat 32 g).toInt = (g : Int) := StableHlo.Predicate.toInt_ofNat_small g (by omega)
  constructor
  · intro e; exact BitVec.eq_of_toInt_eq (e.trans hs.symm)
  · intro e; rw [e]; exact hs

/-- The weights at `(n, d)` are `p n 0`: the first column of `p`, as a vector, as a column, along every row. -/
theorem weightRows_apply (p : FVec Ideal S50000x4 .f32) (n : Fin 50000) (d : Fin 128) :
    weightRows p (ix2 n d) = p (ix2 n (0 : Fin 4)) := by
  unfold weightRows
  refine (broadcastInDim_apply _ bcast_S50000x1_S50000x128_0_1 _ (ix2 n d) (ix2 n (0 : Fin 1)) (fun a => match a with
    | ⟨0, _⟩ => by show n.val = if (50000 : Nat) = 1 then 0 else n.val; rw [if_neg (by decide)]
    | ⟨1, _⟩ => by show 0 = if (1 : Nat) = 1 then 0 else d.val; rw [if_pos rfl])).trans ?_
  refine (broadcastInDim_apply _ bcast_S50000_S50000x1_0 _ (ix2 n (0 : Fin 1)) (ix1 n) (fun a => match a with
    | ⟨0, _⟩ => by show n.val = if (50000 : Nat) = 1 then 0 else n.val; rw [if_neg (by decide)])).trans ?_
  refine (shapeCast_apply _ shapeCasts_S50000x1_S50000 (ix1 n) (ix2 n (0 : Fin 1)) (by
    rewrite [Shape.rowMajor_val_two, Shape.rowMajor_val_one]; show n.val * 1 + 0 = n.val; omega)).trans ?_
  exact extractStridedSlice_apply ![0, 0] p slices_S50000x4_S50000x1_0_0 (ix2 n (0 : Fin 1)) (ix2 n (0 : Fin 4)) (fun a => match a with
    | ⟨0, _⟩ => by show n.val = 0 + n.val; omega
    | ⟨1, _⟩ => by show 0 = 0 + 0; rfl)

/-- The graph ids laid as a column read, at `(n, 0)`, the id of node `n`. -/
theorem idcol_apply (batch : IVec S50000 32) (n : Fin 50000) :
    broadcastInDim S50000x1 ![0] bcast_S50000_S50000x1_0 batch (ix2 n (0 : Fin 1)) = batch (ix1 n) :=
  broadcastInDim_apply _ bcast_S50000_S50000x1_0 batch (ix2 n (0 : Fin 1)) (ix1 n) (fun a => match a with
    | ⟨0, _⟩ => by show n.val = if (50000 : Nat) = 1 then 0 else n.val; rw [if_neg (by decide)])

/-- The graph ids recast as a column read, at `(n, 0)`, the id of node `n`. -/
theorem castcol_apply (batch : IVec S50000 32) (h : (⟨1, ![50000]⟩ : Shape).ShapeCasts ⟨2, ![50000, 1]⟩) (n : Fin 50000) :
    shapeCast ⟨2, ![50000, 1]⟩ batch h (ix2 n (0 : Fin 1)) = batch (ix1 n) :=
  shapeCast_apply batch h (ix2 n (0 : Fin 1)) (ix1 n) (by
    rewrite [Shape.rowMajor_val_two, Shape.rowMajor_val_one]; show n.val = n.val * 1 + 0; omega)

/-- The reference's sum by graph is the pooled sum, whichever way the graph ids were made a column. -/
theorem poolRef_eq (H : FVec Ideal S50000x128 .f32) (p : FVec Ideal S50000x4 .f32) (batch : IVec S50000 32)
    (h : (⟨1, ![50000]⟩ : Shape).ShapeCasts ⟨2, ![50000, 1]⟩) :
    poolRef H p batch = Cert.Spec.pool H p (shapeCast ⟨2, ![50000, 1]⟩ batch h) := by
  funext i
  obtain ⟨g, d, rfl⟩ : ∃ (g : Fin 128) (d : Fin 128), i = ix2 g d := ⟨_, _, eq_ix2 i⟩
  unfold poolRef
  -- the accumulating scatter at `(g, d)`: the zero there plus the sum of the updates that land there
  show Ideal.ofBits .f32 0x00000000#32 +
      ∑ j ∈ Finset.univ.filter (fun j => D.resultIdx? j (broadcastInDim S50000x1 ![0] bcast_S50000_S50000x1_0 batch) = some (ix2 g d)),
        mulf (weightRows p) H j = _
  rw [Ideal.ofBits_zero_f32, zero_add, Finset.sum_filter, sum_idx2]
  unfold Cert.Spec.pool
  refine Finset.sum_congr rfl (fun n _ => ?_)
  -- in row `n` only column `d` can land at `(g, d)`, and it does exactly when `batch n` is the word of `g`
  have key : ∀ d' : Fin 128,
      (if D.resultIdx? (ix2 n d') (broadcastInDim S50000x1 ![0] bcast_S50000_S50000x1_0 batch) = some (ix2 g d) then
          mulf (weightRows p) H (ix2 n d') else 0)
        = if d' = d then (if batch (ix1 n) = BitVec.ofNat 32 g.val then mulf (weightRows p) H (ix2 n d) else 0) else 0 := by
    intro d'
    by_cases hd : d' = d
    · subst hd
      rw [if_pos rfl]
      refine if_congr ?_ rfl rfl
      rw [lands_iff, idcol_apply, toInt_eq_iff _ _ g.isLt]
      exact and_iff_left rfl
    · rw [if_neg hd, if_neg]
      rw [lands_iff]
      exact fun hh => hd (Fin.ext hh.2)
  rw [Finset.sum_congr rfl (fun d' _ => key d'), Finset.sum_ite_eq', if_pos (Finset.mem_univ _)]
  show _ = Cert.Spec.oh (shapeCast ⟨2, ![50000, 1]⟩ batch h (ix2 n (0 : Fin 1))) g * (H (ix2 n d) * p (ix2 n (0 : Fin 4)))
  rw [castcol_apply, mulf_apply, weightRows_apply]
  unfold Cert.Spec.oh
  by_cases hb : batch (ix1 n) = BitVec.ofNat 32 g.val
  · rw [if_pos hb, if_pos hb, one_mul, mul_comm]
  · rw [if_neg hb, if_neg hb, zero_mul]

end Cert.ReferenceIdeal.PoolBridge

end
-- ==== Proof.RowsBridge.lean ====
/-
  Where every source index is a row number of `x`, filling out-of-range rows changes no node's sum: an edge whose TARGET index
  is outside the array is dropped by the sum by target, and on every other edge both gathered rows are in range, so the
  filled rows and the clamped rows are the same rows.
-/
import proofs.«423337_j24172075941939_1_alg».proof.Proof.HostTerms
import proofs.«423337_j24172075941939_1_alg».proof.Pre_finite_inputs
import proofs.«423337_j24172075941939_1_alg».proof.Proof.Gen.Pre_finite_inputs
import Idealize.ShloMosaic.Lib.Pipeline.Value
import Idealize.ShloMosaic.Lib.ValueLayout
import Idealize.ShloMosaic.Lib.ReduceAll
import Idealize.ShloMosaic.Lib.StableHlo.Predicate

noncomputable section

open scoped BigOperators

namespace Cert.KernelIdeal.RowsBridge

open Idealize.ShloMosaic Idealize.ShloMosaic.ValueIdx Cert.KernelIdeal Cert.KernelIdeal.HostTerms

/-- Every source index is a row number of `x`. -/
def SrcInRange (ei : IVec S2x1600000 32) : Prop :=
  ∀ e : Fin 1600000, 0 ≤ (srcOf ei (ix1 e)).toInt ∧ (srcOf ei (ix1 e)).toInt < 50000

section Aux

open Cert.KernelIdeal.Facts₀ Cert.KernelIdeal.Facts

/-- A left fold by `and` over one-bit words that are all 1, from 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The column of start indices at row `p` is the normalised index of edge `p`. -/
theorem idxcol_apply (iv : IVec S1600000 32) (p : Fin 1600000) (q : Fin 1) : idxcol iv (ix2 p q) = normv iv (ix1 p) := by
  unfold idxcol
  refine broadcastInDim_apply _ _ _ _ (ix1 p) (fun a => ?_)
  match a with
  | ⟨0, _⟩ => rfl

/-- A non-negative index is its own normal form. -/
theorem normv_of_nonneg (iv : IVec S1600000 32) (p : Fin 1600000) (h : 0 ≤ (iv (ix1 p)).toInt) : normv iv (ix1 p) = iv (ix1 p) := by
  have hc : ¬ IntOp.cmpi .slt (iv (ix1 p)) 0#32 = 1#1 := by
    rw [IntOp.cmpi_slt, show (0#32 : BitVec 32).toInt = 0 from by decide]; omega
  show Scalar.select (IntOp.cmpi .slt (iv (ix1 p)) 0#32) _ _ = _
  rw [eq_zero_of_ne_one hc, select_zero]

/-- An index in `[0, 50000)` passes the range test: the conjunction over the one-long axis is the single test
    `0 ≤ idx ∧ idx ≤ 49999` on the normalised index, which is the index itself. -/
theorem inRange_of_range (iv : IVec S1600000 32) (p : Fin 1600000) (h0 : 0 ≤ (iv (ix1 p)).toInt) (h1 : (iv (ix1 p)).toInt < 50000) :
    inRange iv (ix1 p) = 1#1 := by
  unfold inRange
  rw [Host.reduce_eq_foldl]
  refine foldl_andi_one _ _ fun i hi => ?_
  have hd := of_decide_eq_true (List.mem_filter.1 hi).2
  obtain ⟨p', q', rfl⟩ : ∃ (p' : Fin 1600000) (q' : Fin 1), i = ix2 p' q' := ⟨_, _, eq_ix2 i⟩
  have hp : p' = p := by
    have hv : ((reducesTo_S1600000x1_S1600000_d1.drop (ix2 p' q')) 0 : Nat) = p'.val :=
      Shape.ReducesTo.drop_apply_val reducesTo_S1600000x1_S1600000_d1 (ix2 p' q') 0
    rw [hd] at hv
    exact Fin.ext hv.symm
  subst hp
  refine IntOp.andi_eq_one.2 ⟨?_, ?_⟩
  · show IntOp.cmpi .sge (idxcol iv (ix2 p' q')) 0#32 = 1#1
    rw [idxcol_apply, normv_of_nonneg iv p' h0, IntOp.cmpi_sge, show (0#32 : BitVec 32).toInt = 0 from by decide]
    exact h0
  · show IntOp.cmpi .sle (idxcol iv (ix2 p' q')) 49999#32 = 1#1
    rw [idxcol_apply, normv_of_nonneg iv p' h0, IntOp.cmpi_sle, show (49999#32 : BitVec 32).toInt = 49999 from by decide]
    omega

/-- On an edge whose index is in `[0, 50000)` the filled row is the clamped row. -/
theorem takeRows_eq_gatherRows (x : FVec Ideal S50000x64 .f32) (iv : IVec S1600000 32) (p : Fin 1600000) (k : Fin 64)
    (h0 : 0 ≤ (iv (ix1 p)).toInt) (h1 : (iv (ix1 p)).toInt < 50000) :
    takeRows x iv (ix2 p k) = gatherRows x iv (ix2 p k) := by
  have hb : broadcastInDim S1600000x64 ![0] bcast_S1600000_S1600000x64_0 (inRange iv) (ix2 p k) = inRange iv (ix1 p) := by
    refine broadcastInDim_apply _ _ _ _ (ix1 p) (fun a => ?_)
    match a with
    | ⟨0, _⟩ => rfl
  unfold takeRows
  rw [select_apply, hb, inRange_of_range iv p h0 h1, select_one]

/-- An update that lands has its result index inside the operand on every axis. -/
theorem range_of_resultIdx? {s si u : Shape} (d : ScatterDims s si u) {w : Nat} (j : u.Idx) (idx : IVec si w) (i : s.Idx)
    (h : d.resultIdx? j idx = some i) (a : Fin s.rank) :
    0 ≤ d.start j idx a + d.window j a ∧ d.start j idx a + d.window j a < s.size a := by
  unfold ScatterDims.resultIdx? at h
  split at h
  · next hh => exact hh a
  · cases h

/-- On the node axis the start of edge `p`'s update is its target index, read signed. -/
theorem scatter_start0 (iv : IVec S1600000 32) (p : Fin 1600000) (q : Fin 128) :
    scatter_S50000x128_S1600000x1_S1600000x128_1_0_0_1.start (ix2 p q)
      (broadcastInDim S1600000x1 ![0] bcast_S1600000_S1600000x1_0 iv) 0 = (iv (ix1 p)).toInt := by
  unfold ScatterDims.start
  rw [dif_pos (by decide)]
  congr 1
  refine broadcastInDim_apply _ _ _ _ (ix1 p) (fun a => ?_)
  match a with
  | ⟨0, _⟩ => rfl

/-- The node axis is an inserted axis: the update's window coordinate on it is 0. -/
theorem scatter_window0 (p : Fin 1600000) (q : Fin 128) :
    scatter_S50000x128_S1600000x1_S1600000x128_1_0_0_1.window (ix2 p q) 0 = 0 := by
  unfold ScatterDims.window
  rw [dif_neg (by decide)]

/-- Two update arrays that agree at every update that lands are summed to the same array. -/
theorem scatterAdd_congr {s si u : Shape} (d : ScatterDims s si u) {w : Nat} (Z : FVec Ideal s .f32) (idx : IVec si w)
    (M M' : FVec Ideal u .f32) (h : ∀ j i, d.resultIdx? j idx = some i → M j = M' j) :
    Host.scatterAdd d Z idx M = Host.scatterAdd d Z idx M' := by
  funext i
  show Ideal.hostScatterAdd d Z idx M i = Ideal.hostScatterAdd d Z idx M' i
  unfold Ideal.hostScatterAdd
  exact congrArg (Z i + ·) (Finset.sum_congr rfl fun j hj => h j i (Finset.mem_filter.1 hj).2)

/-- An edge's message reads only that edge's row of each of the two arrays. -/
theorem msg_congr (A A' B B' : FVec Ideal Cert.Spec.SE64 .f32) (W1 : FVec Ideal Cert.Spec.SW .f32) (b1 : FVec Ideal Cert.Spec.SB .f32)
    (W2 : FVec Ideal Cert.Spec.SW .f32) (b2 : FVec Ideal Cert.Spec.SB .f32) (p : Fin 1600000) (q : Fin 128)
    (hA : ∀ k : Fin 64, A (ix2 p k) = A' (ix2 p k)) (hB : ∀ k : Fin 64, B (ix2 p k) = B' (ix2 p k)) :
    Cert.Spec.msg A B W1 b1 W2 b2 (ix2 p q) = Cert.Spec.msg A' B' W1 b1 W2 b2 (ix2 p q) := by
  have e1 : Cert.Spec.row64 A p = Cert.Spec.row64 A' p := funext fun k => hA k
  have e2 : Cert.Spec.row64 B p = Cert.Spec.row64 B' p := funext fun k => hB k
  show Cert.Spec.mlpRow W1 b1 W2 b2 (Cert.Spec.row64 A p) (Cert.Spec.row64 B p) q
    = Cert.Spec.mlpRow W1 b1 W2 b2 (Cert.Spec.row64 A' p) (Cert.Spec.row64 B' p) q
  rw [e1, e2]

end Aux

/-- The precondition says every source index is a row number of `x`. -/
theorem srcInRange_of_pre (x0 : FVec Ideal S50000x64 .f32) (x1 : FVec Ideal S50000x4 .f32) (x2 : IVec S2x1600000 32) (x3 : IVec S50000 32)
    (x4 : FVec Ideal S128x128 .f32) (x5 : FVec Ideal S128 .f32) (x6 : FVec Ideal S128x128 .f32) (x7 : FVec Ideal S128 .f32)
    (h : Cert.Pre_finite_inputs.fn (F := Ideal) x0 x1 x2 x3 x4 x5 x6 x7 = fun _ => 1#1) : SrcInRange x2 := by
  intro e
  have h0 := congrFun h ValueIdx.ix0
  dsimp only [Cert.Pre_finite_inputs.fn, Cert.Pre_finite_inputs.fn_part1, Cert.Pre_finite_inputs.fn_part2] at h0
  obtain ⟨-, h2⟩ := IntOp.andi_eq_one.1 h0
  haveI : Subsingleton Cert.Pre_finite_inputs.S_.Idx := ⟨fun a b => funext fun d => d.elim0⟩
  have h3 := Host.reduce_andi_all _ _ _ _ _ h2 (ix1 e)
  obtain ⟨ha, hb⟩ := IntOp.andi_eq_one.1 h3
  have ha' : IntOp.cmpi .sge (srcOf x2 (ix1 e)) 0#32 = 1#1 := ha
  have hb' : IntOp.cmpi .slt (srcOf x2 (ix1 e)) 50000#32 = 1#1 := hb
  rw [IntOp.cmpi_sge, show (0#32 : BitVec 32).toInt = 0 from by decide] at ha'
  rw [IntOp.cmpi_slt, show (50000#32 : BitVec 32).toInt = 50000 from by decide] at hb'
  exact ⟨ha', hb'⟩

/-- Summed by target, the messages over the filled rows are the messages over the clamped rows. -/
theorem segSum_take_eq (x : FVec Ideal S50000x64 .f32) (ei : IVec S2x1600000 32)
    (W1 : FVec Ideal S128x128 .f32) (b1 : FVec Ideal S128 .f32) (W2 : FVec Ideal S128x128 .f32) (b2 : FVec Ideal S128 .f32)
    (hsrc : SrcInRange ei) :
    segSum (dstOf ei) (Cert.Spec.msg (takeRows x (dstOf ei)) (subf (takeRows x (srcOf ei)) (takeRows x (dstOf ei))) W1 b1 W2 b2)
      = segSum (dstOf ei) (Cert.Spec.msg (gatherRows x (dstOf ei)) (subf (gatherRows x (srcOf ei)) (gatherRows x (dstOf ei))) W1 b1 W2 b2) := by
  unfold segSum
  refine scatterAdd_congr _ _ _ _ _ fun j i hj' => ?_
  obtain ⟨p, q, rfl⟩ : ∃ (p : Fin 1600000) (q : Fin 128), j = ix2 p q := ⟨_, _, eq_ix2 j⟩
  have hr := range_of_resultIdx? _ _ _ _ hj' 0
  rw [scatter_start0, scatter_window0, show (S50000x128.size 0 : Nat) = 50000 from rfl] at hr
  have hd0 : 0 ≤ (dstOf ei (ix1 p)).toInt := by omega
  have hd1 : (dstOf ei (ix1 p)).toInt < 50000 := by omega
  obtain ⟨hs0, hs1⟩ := hsrc p
  have hA : ∀ k : Fin 64, takeRows x (dstOf ei) (ix2 p k) = gatherRows x (dstOf ei) (ix2 p k) :=
    fun k => takeRows_eq_gatherRows x (dstOf ei) p k hd0 hd1
  have hB : ∀ k : Fin 64, takeRows x (srcOf ei) (ix2 p k) = gatherRows x (srcOf ei) (ix2 p k) :=
    fun k => takeRows_eq_gatherRows x (srcOf ei) p k hs0 hs1
  refine msg_congr _ _ _ _ W1 b1 W2 b2 p q hA fun k => ?_
  rw [subf_apply, subf_apply, hA k, hB k]

end Cert.KernelIdeal.RowsBridge

end
-- ==== Proof.lean ====
/-
  The kernel gathers the target and source rows of `x` for each edge (filling a row whose index is out of range), runs the
  two-layer perceptron on `[x_i, x_j - x_i]` edge block by edge block, sums the messages by target node on the host, and pools
  the weighted node features by graph with a one-hot matrix product accumulated over ten node blocks. The reference gathers
  the same rows (clamping instead of filling), applies the same perceptron as two whole products, sums by target node, weights
  and sums by graph. Over the extended reals the two agree wherever every SOURCE index is a row number of `x` (the added
  precondition): an edge whose TARGET index is out of range is dropped by the sum by target in both programs, every other
  gathered row is the same row in both, a product against a one-hot column is the sum over the rows it selects, and sums may
  be regrouped freely.
-/
import proofs.«423337_j24172075941939_1_alg».proof.Defs
import proofs.«423337_j24172075941939_1_alg».proof.Proof.Gen.Kernel
import proofs.«423337_j24172075941939_1_alg».proof.Proof.Gen.Kernel.Skeleton
import proofs.«423337_j24172075941939_1_alg».proof.Proof.Gen.Kernel.Launch
import proofs.«423337_j24172075941939_1_alg».proof.Proof.Gen.Kernel.Points
import proofs.«423337_j24172075941939_1_alg».proof.Proof.Gen.Kernel.Frame
import proofs.«423337_j24172075941939_1_alg».proof.Proof.Gen.KernelIdeal
import proofs.«423337_j24172075941939_1_alg».proof.Proof.Gen.KernelIdeal.Skeleton
import proofs.«423337_j24172075941939_1_alg».proof.Proof.Gen.KernelIdeal.Launch
import proofs.«423337_j24172075941939_1_alg».proof.Proof.Gen.KernelIdeal.Points
import proofs.«423337_j24172075941939_1_alg».proof.Proof.Gen.KernelIdeal.Frame
import proofs.«423337_j24172075941939_1_alg».proof.Proof.Gen.ReferenceIdeal
import proofs.«423337_j24172075941939_1_alg».proof.Proof.Gen.ReferenceIdeal.Run
import proofs.«423337_j24172075941939_1_alg».proof.Proof.Gen.ReferenceIdeal.Read
import proofs.«423337_j24172075941939_1_alg».proof.Proof.Gen.Pre_finite_inputs
import proofs.«423337_j24172075941939_1_alg».proof.Proof.KernelRun
import proofs.«423337_j24172075941939_1_alg».proof.Proof.KernelValue
import proofs.«423337_j24172075941939_1_alg».proof.Proof.RefValue
import proofs.«423337_j24172075941939_1_alg».proof.Proof.PoolBridge
import proofs.«423337_j24172075941939_1_alg».proof.Proof.RowsBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at one function of the arguments: the kernel's named run at `kernelValue`, the reference's generated run at
    `refValue`, and under the precondition the two are equal. -/
theorem algebraic : Cert.algebraic_KernelIdeal_ReferenceIdeal := by
  intro m ρ m' ρ' hpre hagree
  refine ⟨fun c => Cert.KernelIdeal.HostTerms.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.W7_result m ρ c), (h c).2⟩)
      (Cert.KernelIdeal.Gen.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v39_eq, Cert.ReferenceIdeal.RefValue.result,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    beta_reduce
    unfold Cert.ReferenceIdeal.RefValue.refValue Cert.KernelIdeal.HostTerms.kernelValue
    rw [Cert.ReferenceIdeal.PoolBridge.poolRef_eq _ _ _ Cert.KernelIdeal.Facts₀.shapeCasts_S50000_S50000x1,
      Cert.KernelIdeal.RowsBridge.segSum_take_eq _ _ _ _ _ _
        (Cert.KernelIdeal.RowsBridge.srcInRange_of_pre _ _ _ _ _ _ _ _ (hpre c))]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
